-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x3072 : Shape := ⟨2, ![1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x2048x16x64 : Shape := ⟨4, ![2, 2048, 16, 64]⟩
abbrev S1x1024 : Shape := ⟨2, ![1, 1024]⟩
abbrev S2x16x2048x2048 : Shape := ⟨4, ![2, 16, 2048, 2048]⟩

abbrev nBuf : Space → Nat
  | .hbm => 25
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072x1024, .bf16⟩
  | .hbm, ⟨6, _⟩ => ⟨S1024x1024, .bf16⟩
  | .hbm, ⟨7, _⟩ => ⟨S4096x1024, .f32⟩
  | .hbm, ⟨8, _⟩ => ⟨S4096x3072, .bf16⟩
  | .hbm, ⟨9, _⟩ => ⟨S2x2048x16x192, .bf16⟩
  | .hbm, ⟨10, _⟩ => ⟨S2x16x2048x192, .bf16⟩
  | .hbm, ⟨11, _⟩ => ⟨S2x16x2048x64, .bf16⟩
  | .hbm, ⟨12, _⟩ => ⟨S2x16x2048x64, .bf16⟩
  | .hbm, ⟨13, _⟩ => ⟨S2x16x2048x64, .bf16⟩
  | .hbm, ⟨14, _⟩ => ⟨S32x2048x64, .bf16⟩
  | .hbm, ⟨15, _⟩ => ⟨S32x2048x64, .bf16⟩
  | .hbm, ⟨16, _⟩ => ⟨S32x2048x64, .bf16⟩
  | .hbm, ⟨17, _⟩ => ⟨S32x2048x64, .bf16⟩
  | .hbm, ⟨18, _⟩ => ⟨S32x2048x2048, .f32⟩
  | .hbm, ⟨19, _⟩ => ⟨S2x16x2048x64, .bf16⟩
  | .hbm, ⟨20, _⟩ => ⟨S2x2048x16x64, .bf16⟩
  | .hbm, ⟨21, _⟩ => ⟨S4096x1024, .bf16⟩
  | .hbm, ⟨22, _⟩ => ⟨S4096x1024, .f32⟩
  | .hbm, ⟨23, _⟩ => ⟨S2x2048x1024, .f32⟩
  | .hbm, ⟨24, _⟩ => ⟨S2x16x2048x2048, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x2048, .f32⟩
  | .local _ .vmem, ⟨15, _⟩ => ⟨S1x512x2048, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x16x192 : S4096x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S4096x1024_S2x2048x1024 : S4096x1024.ShapeCasts S2x2048x1024
  shapeCasts_S32x2048x2048_S2x16x2048x2048 : S32x2048x2048.ShapeCasts S2x16x2048x2048
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S32x2048x2048.size a
  hwx1_4 : ∀ i : grid1.Coords, EltTy.bits .f32 = 32 ∨ (Rect.block (s := S32x2048x2048) S1x512x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  Multi-head self-attention on the extended reals, index by index: for x[2, 2048, 1024] the fused projection
  qkv = x · w_qkvᵀ + b_qkv into 3072 columns, read as 16 heads of 192 columns each (64 of q, 64 of k, 64 of v), the
  scores q · kᵀ scaled by 1/8 = 1/√64, the softmax of each score row taken from the row's maximum, the values
  weighted by those probabilities, the heads laid side by side again, and the output projection · w_outᵀ + b_out.
  Both programs are shown to compute `out` and `attn` of this file. The few facts about literals that the two
  spellings need are here too: the words of 1/8, of 64 and of −∞, that dividing by √64 is multiplying by 1/8 on every
  extended real, and that a maximum taken from −∞ is not changed by one more comparison with −∞.
-/
import Idealize.ShloMosaic.PureOps.Ideal.Laws
import Idealize.ShloMosaic.Lib.ValueIdx

noncomputable section

namespace Cert.Mha

open Idealize.ShloMosaic

/-! ## The pieces, over any extents -/

/-- A linear layer at row `r`, column `c`: the row of `a` against the row `c` of `w`, plus the bias. -/
def lin {M K N : Nat} (a : Fin M → Fin K → EReal) (w : Fin N → Fin K → EReal) (b : Fin N → EReal)
    (r : Fin M) (c : Fin N) : EReal := (∑ k : Fin K, a r k * w c k) + b c

/-- The scale of the scores: 1/8, the reciprocal of the square root of the head width 64. -/
def scale : EReal := ((1 / 8 : ℝ) : EReal)

/-- The maximum of a row, taken from −∞. -/
def rowMax {n : Nat} (s : Fin n → EReal) : EReal := (Finset.univ : Finset (Fin n)).fold max ⊥ s

/-- The softmax of a row at `k`: the exponential of the entry less the row's maximum, over the sum of those. -/
def softmax {n : Nat} (s : Fin n → EReal) (k : Fin n) : EReal :=
  Ideal.div (Ideal.exp (s k - rowMax s)) (∑ j : Fin n, Ideal.exp (s j - rowMax s))

/-- One head's scaled score of query row `i` against key row `j`. -/
def score {S D : Nat} (q k : Fin S → Fin D → EReal) (i j : Fin S) : EReal := (∑ d : Fin D, q i d * k j d) * scale

/-- One head's attention probabilities of query row `i`. -/
def probs {S D : Nat} (q k : Fin S → Fin D → EReal) (i : Fin S) : Fin S → EReal := softmax (score q k i)

/-- One head's weighted values at query row `i`, lane `d`. -/
def wvals {S D : Nat} (q k v : Fin S → Fin D → EReal) (i : Fin S) (d : Fin D) : EReal :=
  ∑ j : Fin S, probs q k i j * v j d

/-! ## The layer -/

section Layer

variable (x : Fin 2 → Fin 2048 → Fin 1024 → EReal) (wq : Fin 3072 → Fin 1024 → EReal) (bq : Fin 3072 → EReal)
  (wo : Fin 1024 → Fin 1024 → EReal) (bo : Fin 1024 → EReal)

/-- The fused projection at batch `b`, position `s`, column `f`. -/
def qkv (b : Fin 2) (s : Fin 2048) (f : Fin 3072) : EReal := lin (x b) wq bq s f

/-- Column `d` of part `o` (0 for q, 64 for k, 128 for v) of head `h` among the 3072. -/
def col (o : Nat) (ho : o ≤ 128) (h : Fin 16) (d : Fin 64) : Fin 3072 :=
  ⟨h.val * 192 + o + d.val, by have := h.isLt; have := d.isLt; omega⟩

/-- Head `h`'s queries, keys and values. -/
def hq (b : Fin 2) (h : Fin 16) (s : Fin 2048) (d : Fin 64) : EReal := qkv x wq bq b s (col 0 (by omega) h d)
def hk (b : Fin 2) (h : Fin 16) (s : Fin 2048) (d : Fin 64) : EReal := qkv x wq bq b s (col 64 (by omega) h d)
def hv (b : Fin 2) (h : Fin 16) (s : Fin 2048) (d : Fin 64) : EReal := qkv x wq bq b s (col 128 (by omega) h d)

/-- The attention probabilities: the second result. -/
def attn (b : Fin 2) (h : Fin 16) (q k : Fin 2048) : EReal := probs (hq x wq bq b h) (hk x wq bq b h) q k

/-- The weighted values of head `h`. -/
def vals (b : Fin 2) (h : Fin 16) (q : Fin 2048) (d : Fin 64) : EReal :=
  wvals (hq x wq bq b h) (hk x wq bq b h) (hv x wq bq b h) q d

/-- The heads side by side: column `e` is lane `e % 64` of head `e / 64`. -/
def merged (b : Fin 2) (s : Fin 2048) (e : Fin 1024) : EReal :=
  vals x wq bq b ⟨e.val / 64, by have := e.isLt; omega⟩ s ⟨e.val % 64, Nat.mod_lt _ (by omega)⟩

/-- The output projection: the first result. -/
def out (b : Fin 2) (s : Fin 2048) (f : Fin 1024) : EReal := lin (merged x wq bq b) wo bo s f

end Layer

/-! ## The two results as arrays over the argument arrays -/

open Idealize.ShloMosaic.ValueIdx in
/-- The first result, `out[2, 2048, 1024]`, as an array over the five argument arrays. -/
def outArr (X : (⟨3, ![2, 2048, 1024]⟩ : Shape).Idx → EReal) (WQ : (⟨2, ![3072, 1024]⟩ : Shape).Idx → EReal)
    (BQ : (⟨1, ![3072]⟩ : Shape).Idx → EReal) (WO : (⟨2, ![1024, 1024]⟩ : Shape).Idx → EReal)
    (BO : (⟨1, ![1024]⟩ : Shape).Idx → EReal) : (⟨3, ![2, 2048, 1024]⟩ : Shape).Idx → EReal :=
  fun j => out (fun b s e => X (ix3 b s e)) (fun f e => WQ (ix2 f e)) (fun f => BQ (ix1 f))
    (fun f e => WO (ix2 f e)) (fun f => BO (ix1 f)) (j 0) (j 1) (j 2)

open Idealize.ShloMosaic.ValueIdx in
/-- The second result, `attn[2, 16, 2048, 2048]`, as an array over the three argument arrays it depends on. -/
def attnArr (X : (⟨3, ![2, 2048, 1024]⟩ : Shape).Idx → EReal) (WQ : (⟨2, ![3072, 1024]⟩ : Shape).Idx → EReal)
    (BQ : (⟨1, ![3072]⟩ : Shape).Idx → EReal) : (⟨4, ![2, 16, 2048, 2048]⟩ : Shape).Idx → EReal :=
  fun j => attn (fun b s e => X (ix3 b s e)) (fun f e => WQ (ix2 f e)) (fun f => BQ (ix1 f)) (j 0) (j 1) (j 2) (j 3)

/-! ## The literals -/

/-- The word of `0.125` denotes 1/8. -/
theorem ofBits_eighth : Ideal.ofBits .f32 0x3E000000#32 = scale := by
  unfold scale; simp [Ideal.ofBits, Ideal.ieee, -EReal.coe_mul]; norm_num

/-- The word of `64.0` denotes 64. -/
theorem ofBits_64 : Ideal.ofBits .f32 0x42800000#32 = ((64 : ℝ) : EReal) := by
  simp [Ideal.ofBits, Ideal.ieee, -EReal.coe_mul]; norm_num

/-- The word of −∞ denotes the bottom of the extended reals. -/
theorem ofBits_negInf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  show (if (64 : ℝ) < 0 then ⊥ else (Real.sqrt 64 : EReal)) = _
  rw [if_neg (by norm_num)]
  congr 1
  rw [show (64 : ℝ) = 8 ^ 2 by norm_num, Real.sqrt_sq (by norm_num)]

/-- Dividing by √64 is multiplying by 1/8, on every extended real. -/
theorem div_sqrt_64 (y : EReal) : Ideal.div y (Ideal.sqrt (Ideal.ofBits .f32 0x42800000#32)) = y * scale := by
  rw [ofBits_64, sqrt_64, Ideal.div_coe (by norm_num : (8 : ℝ) ≠ 0)]; rfl

/-- A maximum taken from −∞ is unchanged by one more comparison with −∞. -/
theorem max_bot_left (y : EReal) : max (⊥ : EReal) y = y := max_eq_right bot_le

end Cert.Mha

end
-- ==== Proof.LibDotRows.lean ====
/-
  A matrix product of two operands that are both contracted over their SECOND axis, read at an output index as a sum
  over that axis's coordinate. The library states the product's value as a sum over the dimension numbers' contraction
  index set of the operands at two computed operand indices. For an [M, K] operand against an [N, K] operand (rows
  against rows: the right operand enters transposed) the contraction index is one coordinate `k`, and the operand
  indices at the output index (r, c) are (r, k) and (c, k). Stated for any extents and any dimension-numbers record
  with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row is the output's row. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row is the output's column. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The products themselves, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The host's rows × rows product at (r, c): the same sum. -/
theorem dotGeneral_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    Host.dotGeneral d prec A B (ix2 r c) = ∑ k : Fin K, A (ix2 r k) * B (ix2 c k) := by
  simp only [Host.dotGeneral]
  rw [Ideal.dotGeneral_apply]
  exact sum_contr_rr d hlc hrc hln hrn hlb hrb (fun a b => A a * B b) r c

end Cert.Lib

end
-- ==== Proof.Proj0.lean ====
import proofs.«411648_j9225589752264_3_alg».proof.Proof.Gen.KernelIdeal.Frame
import proofs.«411648_j9225589752264_3_alg».proof.Proof.Spec
import proofs.«411648_j9225589752264_3_alg».proof.Proof.LibDotRows
import Idealize.ShloMosaic.Lib.ValueLayout

set_option maxRecDepth 16384

noncomputable section

namespace Cert.KernelIdeal.Proj0

open Idealize.ShloMosaic Idealize.ShloMosaic.TcCoe Idealize.ShloMosaic.ValueIdx Idealize.SL.Sem
open Cert.KernelIdeal Cert.KernelIdeal.Gen

/-! ## One block of the product: the body's stored value at (p, q) -/

/-- What the body stores at row `p`, column `q` of its block: row `p` of the staged rows against row `q` of the
    weight, summed over the 1024 shared coordinates, plus entry `q` of the bias. The two format changes are the
    identity on the extended reals, and the bias row is the same for every `p`. -/
theorem pay_apply (x0 : Vec Ideal S512x1024 .f32) (x1 : Vec Ideal S3072x1024 .bf16) (x2 : Vec Ideal S3072 .f32)
    (p : Fin 512) (q : Fin 3072) :
    k0_pay1 (F := Ideal) x0 x1 x2 (ix2 p q) = (∑ k : Fin 1024, x0 (ix2 p k) * x1 (ix2 q k)) + x2 (ix1 q) := by
  unfold k0_pay1
  rw [shapeCast_self, shapeCast_self]
  show matmul (F := Ideal) dot_S512x1024_S3072x1024_S512x3072_1_1_0_0_n_n none (truncf .bf16 x0 _) x1
        (constant (F := Ideal) S512x3072 .f32 0x00000000#32) (ix2 p q)
      + broadcastTo S512x3072 (shapeCast S1x3072 x2 _) _ (ix2 p q) = _
  rw [broadcastTo_1b_ab_apply, shapeCast_a_1a_apply]
  exact congrArg (· + x2 (ix1 q)) (Cert.Lib.matmul_rr_apply _ rfl rfl rfl rfl rfl rfl none _ x1 p q)

/-- So, when the block's row `p` is row `r` of an array `A`, the weight block is `W` and the bias block is `B`, the stored
    value is the linear layer of `A`, `W`, `B` at (r, q). -/
theorem pay_lin (x0 : Vec Ideal S512x1024 .f32) (x1 : Vec Ideal S3072x1024 .bf16) (x2 : Vec Ideal S3072 .f32)
    (A : Fin 4096 → Fin 1024 → EReal) (W : Fin 3072 → Fin 1024 → EReal) (B : Fin 3072 → EReal)
    (p : Fin 512) (q : Fin 3072) (r : Fin 4096)
    (hA : ∀ k, x0 (ix2 p k) = A r k) (hW : ∀ k, x1 (ix2 q k) = W q k) (hB : x2 (ix1 q) = B q) :
    k0_pay1 (F := Ideal) x0 x1 x2 (ix2 p q) = Cert.Mha.lin A W B r q := by
  rw [pay_apply]
  unfold Cert.Mha.lin
  simp only [hA, hW, hB]

/-! ## The whole array -/

variable (V : (c : Dev nD) → (b : Ref sig .tc) → Buf (Elt Ideal) ((c : Thread nD τ).loc b))

/-- The linear layer of the three staged arrays, as one array over (row, column). -/
def linArr (c : Dev nD) : S4096x3072.Idx → EReal := fun i =>
  Cert.Mha.lin (fun r k => V c main_v2 (ix2 r k)) (fun f k => V c main_v0 (ix2 f k)) (fun f => V c main_arg2 (ix1 f)) (i 0) (i 1)

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the eight grid points: the row block sits at the result block's block row,
    one of the eight, block column 0; the weight and the bias are always block 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 7 ∧ win0_3.index t (1 : Fin 2) = 0 :=
  (by decide +kernel : ∀ t : Fin grid0.N, _)

/-- Every block row of the result is some point's. -/
theorem idx_onto : ∀ b : Fin 8, ∃ t : Fin cfg0.N, win0_3.index t (0 : Fin 2) = b.val ∧ win0_3.index t (1 : Fin 2) = 0 :=
  (by decide +kernel : ∀ b : Fin 8, ∃ t : Fin grid0.N, win0_3.index t (0 : Fin 2) = b.val ∧ win0_3.index t (1 : Fin 2) = 0)

/-- What point `t` writes back is block `t` of the linear layer of the arrays as the call finds them. -/
theorem flushed_eq (c : Dev nD) (t : Fin cfg0.N) :
    (dat0 V c).flushed 3 t = ((cfg0.win 3).blk t).view.read (Elt Ideal) (linArr V c) := by
  show (cfg0.win 3).cut (grid0.coords t) ((dat0 V c).after 3 t) = _
  rw [after0_3]
  unfold out0_3
  rw [View.canon_unit_zero zero2]
  simp only [View.ld_unit_zero (S := S512x1024) zero2, View.ld_unit_zero (S := S3072x1024) zero2,
    View.ld_unit_zero (S := S3072) zero1]
  obtain ⟨e00, e01, e10, e11, e20, e30, e31⟩ := idx_facts t
  funext j
  obtain ⟨p, q, rfl⟩ : ∃ (p : Fin 512) (q : Fin 3072), j = ix2 p q := ⟨j 0, j 1, eq_ix2 j⟩
  have hp : p.val < 512 := p.isLt
  have hq : q.val < 3072 := q.isLt
  obtain ⟨r, hr⟩ : ∃ r : Fin 4096, r.val = win0_3.index t (0 : Fin 2) * 512 + p.val := ⟨⟨_, by omega⟩, rfl⟩
  have h3 : ((cfg0.win 3).blk t).view.emb (ix2 p q) = (ix2 r q : S4096x3072.Idx) := by
    funext a; apply Fin.ext
    match a with
    | ⟨0, _⟩ => show win0_3.index t (0 : Fin 2) * 512 + 1 * p.val = r.val; omega
    | ⟨1, _⟩ => show win0_3.index t (1 : Fin 2) * 3072 + 1 * q.val = q.val; omega
  have h0 : ∀ k : Fin 1024, ((cfg0.win 0).blk t).view.emb (ix2 p k) = (ix2 r k : S4096x1024.Idx) := fun k => by
    have hk : k.val < 1024 := k.isLt
    funext a; apply Fin.ext
    match a with
    | ⟨0, _⟩ => show win0_0.index t (0 : Fin 2) * 512 + 1 * p.val = r.val; omega
    | ⟨1, _⟩ => show win0_0.index t (1 : Fin 2) * 1024 + 1 * k.val = k.val; omega
  have h1 : ∀ k : Fin 1024, ((cfg0.win 1).blk t).view.emb (ix2 q k) = (ix2 q k : S3072x1024.Idx) := fun k => by
    have hk : k.val < 1024 := k.isLt
    funext a; apply Fin.ext
    match a with
    | ⟨0, _⟩ => show win0_1.index t (0 : Fin 2) * 3072 + 1 * q.val = q.val; omega
    | ⟨1, _⟩ => show win0_1.index t (1 : Fin 2) * 1024 + 1 * k.val = k.val; omega
  have h2 : ((cfg0.win 2).blk t).view.emb (ix1 q) = (ix1 q : S3072.Idx) := by
    funext a; apply Fin.ext
    match a with
    | ⟨0, _⟩ => show win0_2.index t (0 : Fin 1) * 3072 + 1 * q.val = q.val; omega
  show k0_pay1 (F := Ideal) (iblk0 V c 0 t) (iblk0 V c 1 t) (iblk0 V c 2 t) (ix2 p q)
      = linArr V c (((cfg0.win 3).blk t).view.emb (ix2 p q))
  rw [h3]
  exact pay_lin _ _ _ (fun r k => V c main_v2 (ix2 r k)) (fun f k => V c main_v0 (ix2 f k))
    (fun f => V c main_arg2 (ix1 f)) p q r (fun k => congrArg (V c main_v2) (h0 k))
    (fun k => congrArg (V c main_v0) (h1 k)) (congrArg (V c main_arg2) h2)

/-- An index of the array is in point `t`'s block iff each coordinate is in the block's range on its axis. -/
theorem mem_blk (t : Fin cfg0.N) (i : S4096x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v3).slice (win0_3.rect t)).set ↔ _
  rw [View.set_slice_whole, Rect.mem_set_unit]
  exact Iff.rfl

/-- Every index of the array is in some point's block: row `r` is in block row `r / 512`, and a block spans all columns. -/
theorem cover (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, q0, q1⟩ := idx_onto ⟨(i 0).val / 512, by omega⟩
  have q0' : win0_3.index t (0 : Fin 2) = (i 0).val / 512 := q0
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The first pallas_call's result array, whatever the buffers hold when it is entered: at row `r`, column `f` the
    linear layer of the array it stages as window 0 against the one it stages as window 1, plus window 2's bias. -/
theorem final (c : Dev nD) (r : Fin 4096) (f : Fin 3072) :
    (dat0 V c).arrAt 3 cfg0.N (ix2 r f)
      = Cert.Mha.lin (fun r k => V c main_v2 (ix2 r k)) (fun f k => V c main_v0 (ix2 f k))
          (fun f => V c main_arg2 (ix1 f)) r f :=
  congrFun ((dat0 V c).arrAt_eq_of_cover 3 (linArr V c) (fun t _ => flushed_eq V c t) cover) (ix2 r f)

end Cert.KernelIdeal.Proj0

end
-- ==== Proof.Proj2.lean ====
import proofs.«411648_j9225589752264_3_alg».proof.Proof.Gen.KernelIdeal.Frame
import proofs.«411648_j9225589752264_3_alg».proof.Proof.Spec
import proofs.«411648_j9225589752264_3_alg».proof.Proof.LibDotRows
import Idealize.ShloMosaic.Lib.ValueLayout

set_option maxRecDepth 16384

noncomputable section

namespace Cert.KernelIdeal.Proj2

open Idealize.ShloMosaic Idealize.ShloMosaic.TcCoe Idealize.ShloMosaic.ValueIdx Idealize.SL.Sem
open Cert.KernelIdeal Cert.KernelIdeal.Gen

/-! ## One block of the product: the body's stored value at (p, q) -/

/-- What the body stores at row `p`, column `q` of its block: row `p` of the staged rows against row `q` of the
    weight, summed over the 1024 shared coordinates, plus entry `q` of the bias. The bias row is the same for every `p`. -/
theorem pay_apply (x0 : Vec Ideal S512x1024 .bf16) (x1 : Vec Ideal S1024x1024 .bf16) (x2 : Vec Ideal S1024 .f32)
    (p : Fin 512) (q : Fin 1024) :
    k2_pay1 (F := Ideal) x0 x1 x2 (ix2 p q) = (∑ k : Fin 1024, x0 (ix2 p k) * x1 (ix2 q k)) + x2 (ix1 q) := by
  unfold k2_pay1
  rw [shapeCast_self, shapeCast_self]
  show matmul (F := Ideal) dot_S512x1024_S1024x1024_S512x1024_1_1_0_0_n_n none x0 x1
        (constant (F := Ideal) S512x1024 .f32 0x00000000#32) (ix2 p q)
      + broadcastTo S512x1024 (shapeCast S1x1024 x2 _) _ (ix2 p q) = _
  rw [broadcastTo_1b_ab_apply, shapeCast_a_1a_apply]
  exact congrArg (· + x2 (ix1 q)) (Cert.Lib.matmul_rr_apply _ rfl rfl rfl rfl rfl rfl none _ x1 p q)

/-- So, when the block's row `p` is row `r` of an array `A`, the weight block is `W` and the bias block is `B`, the stored
    value is the linear layer of `A`, `W`, `B` at (r, q). -/
theorem pay_lin (x0 : Vec Ideal S512x1024 .bf16) (x1 : Vec Ideal S1024x1024 .bf16) (x2 : Vec Ideal S1024 .f32)
    (A : Fin 4096 → Fin 1024 → EReal) (W : Fin 1024 → Fin 1024 → EReal) (B : Fin 1024 → EReal)
    (p : Fin 512) (q : Fin 1024) (r : Fin 4096)
    (hA : ∀ k, x0 (ix2 p k) = A r k) (hW : ∀ k, x1 (ix2 q k) = W q k) (hB : x2 (ix1 q) = B q) :
    k2_pay1 (F := Ideal) x0 x1 x2 (ix2 p q) = Cert.Mha.lin A W B r q := by
  rw [pay_apply]
  unfold Cert.Mha.lin
  simp only [hA, hW, hB]

/-! ## The whole array -/

variable (V : (c : Dev nD) → (b : Ref sig .tc) → Buf (Elt Ideal) ((c : Thread nD τ).loc b))

/-- The linear layer of the three staged arrays, as one array over (row, column). -/
def linArr (c : Dev nD) : S4096x1024.Idx → EReal := fun i =>
  Cert.Mha.lin (fun r k => V c main_v15 (ix2 r k)) (fun f k => V c main_v1 (ix2 f k)) (fun f => V c main_arg4 (ix1 f)) (i 0) (i 1)

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the eight grid points: the row block sits at the result block's block row,
    one of the eight, block column 0; the weight and the bias are always block 0. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (0 : Fin 2) ≤ 7 ∧ win2_3.index t (1 : Fin 2) = 0 :=
  (by decide +kernel : ∀ t : Fin grid2.N, _)

/-- Every block row of the result is some point's. -/
theorem idx_onto : ∀ b : Fin 8, ∃ t : Fin cfg2.N, win2_3.index t (0 : Fin 2) = b.val ∧ win2_3.index t (1 : Fin 2) = 0 :=
  (by decide +kernel : ∀ b : Fin 8, ∃ t : Fin grid2.N, win2_3.index t (0 : Fin 2) = b.val ∧ win2_3.index t (1 : Fin 2) = 0)

/-- What point `t` writes back is block `t` of the linear layer of the arrays as the call finds them. -/
theorem flushed_eq (c : Dev nD) (t : Fin cfg2.N) :
    (dat2 V c).flushed 3 t = ((cfg2.win 3).blk t).view.read (Elt Ideal) (linArr V c) := by
  show (cfg2.win 3).cut (grid2.coords t) ((dat2 V c).after 3 t) = _
  rw [after2_3]
  unfold out2_3
  rw [View.canon_unit_zero zero2]
  simp only [View.ld_unit_zero (S := S512x1024) zero2, View.ld_unit_zero (S := S1024x1024) zero2,
    View.ld_unit_zero (S := S1024) zero1]
  obtain ⟨e00, e01, e10, e11, e20, e30, e31⟩ := idx_facts t
  funext j
  obtain ⟨p, q, rfl⟩ : ∃ (p : Fin 512) (q : Fin 1024), j = ix2 p q := ⟨j 0, j 1, eq_ix2 j⟩
  have hp : p.val < 512 := p.isLt
  have hq : q.val < 1024 := q.isLt
  obtain ⟨r, hr⟩ : ∃ r : Fin 4096, r.val = win2_3.index t (0 : Fin 2) * 512 + p.val := ⟨⟨_, by omega⟩, rfl⟩
  have h3 : ((cfg2.win 3).blk t).view.emb (ix2 p q) = (ix2 r q : S4096x1024.Idx) := by
    funext a; apply Fin.ext
    match a with
    | ⟨0, _⟩ => show win2_3.index t (0 : Fin 2) * 512 + 1 * p.val = r.val; omega
    | ⟨1, _⟩ => show win2_3.index t (1 : Fin 2) * 1024 + 1 * q.val = q.val; omega
  have h0 : ∀ k : Fin 1024, ((cfg2.win 0).blk t).view.emb (ix2 p k) = (ix2 r k : S4096x1024.Idx) := fun k => by
    have hk : k.val < 1024 := k.isLt
    funext a; apply Fin.ext
    match a with
    | ⟨0, _⟩ => show win2_0.index t (0 : Fin 2) * 512 + 1 * p.val = r.val; omega
    | ⟨1, _⟩ => show win2_0.index t (1 : Fin 2) * 1024 + 1 * k.val = k.val; omega
  have h1 : ∀ k : Fin 1024, ((cfg2.win 1).blk t).view.emb (ix2 q k) = (ix2 q k : S1024x1024.Idx) := fun k => by
    have hk : k.val < 1024 := k.isLt
    funext a; apply Fin.ext
    match a with
    | ⟨0, _⟩ => show win2_1.index t (0 : Fin 2) * 1024 + 1 * q.val = q.val; omega
    | ⟨1, _⟩ => show win2_1.index t (1 : Fin 2) * 1024 + 1 * k.val = k.val; omega
  have h2 : ((cfg2.win 2).blk t).view.emb (ix1 q) = (ix1 q : S1024.Idx) := by
    funext a; apply Fin.ext
    match a with
    | ⟨0, _⟩ => show win2_2.index t (0 : Fin 1) * 1024 + 1 * q.val = q.val; omega
  show k2_pay1 (F := Ideal) (iblk2 V c 0 t) (iblk2 V c 1 t) (iblk2 V c 2 t) (ix2 p q)
      = linArr V c (((cfg2.win 3).blk t).view.emb (ix2 p q))
  rw [h3]
  exact pay_lin _ _ _ (fun r k => V c main_v15 (ix2 r k)) (fun f k => V c main_v1 (ix2 f k))
    (fun f => V c main_arg4 (ix1 f)) p q r (fun k => congrArg (V c main_v15) (h0 k))
    (fun k => congrArg (V c main_v1) (h1 k)) (congrArg (V c main_arg4) h2)

/-- An index of the array is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v16).slice (win2_3.rect t)).set ↔ _
  rw [View.set_slice_whole, Rect.mem_set_unit]
  exact Iff.rfl

/-- Every index of the array is in some point's block: row `r` is in block row `r / 512`, and a block spans all columns. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, q0, q1⟩ := idx_onto ⟨(i 0).val / 512, by omega⟩
  have q0' : win2_3.index t (0 : Fin 2) = (i 0).val / 512 := q0
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The third pallas_call's result array, whatever the buffers hold when it is entered: at row `r`, column `f` the
    linear layer of window 0's array against window 1's, plus window 2's bias. -/
theorem final (c : Dev nD) (r : Fin 4096) (f : Fin 1024) :
    (dat2 V c).arrAt 3 cfg2.N (ix2 r f)
      = Cert.Mha.lin (fun r k => V c main_v15 (ix2 r k)) (fun f k => V c main_v1 (ix2 f k))
          (fun f => V c main_arg4 (ix1 f)) r f :=
  congrFun ((dat2 V c).arrAt_eq_of_cover 3 (linArr V c) (fun t _ => flushed_eq V c t) cover) (ix2 r f)

end Cert.KernelIdeal.Proj2

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.AttnRegion.lean ====
import proofs.«411648_j9225589752264_3_alg».proof.Proof.Gen.KernelIdeal.Frame
import proofs.«411648_j9225589752264_3_alg».proof.Proof.Spec
import proofs.«411648_j9225589752264_3_alg».proof.Proof.LibDotRows
import proofs.«411648_j9225589752264_3_alg».proof.Proof.LibDotSum
import Idealize.ShloMosaic.Lib.Pipeline.Value
import Idealize.ShloMosaic.Lib.ValueLayout

set_option maxRecDepth 16384

noncomputable section

namespace Cert.KernelIdeal.AttnRegion

open Idealize.ShloMosaic Idealize.ShloMosaic.TcCoe Idealize.ShloMosaic.ValueIdx Idealize.SL.Sem
open Cert.KernelIdeal Cert.KernelIdeal.Gen

/-! ## A column of row results spread back over the rows

A row reduction of an [a, b] block gives a vector [a]; the kernel keeps it as a column [a, 1] and spreads the column over
the b positions of each row. Read at (p, c) the spread column is the reduction's entry p. -/

/-- An `[a]` vector cast to the column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The probabilities' payload at an index -/

/-- The scaled scores of a query block against the keys: the rows × rows product into zero, times the word of 1/8. -/
private def scoresV (x0 : Vec Ideal S1x512x64 .bf16) (x1 : Vec Ideal S1x2048x64 .bf16) : FVec Ideal S512x2048 .f32 :=
  mulf (matmul (φ₁ := .bf16) (φ₂ := .bf16) dot_S512x64_S2048x64_S512x2048_1_1_0_0_n_n none (shapeCast S512x64 x0 shapeCasts_S1x512x64_S512x64)
      (shapeCast S2048x64 x1 shapeCasts_S1x2048x64_S2048x64) (constant (F := Ideal) S512x2048 .f32 0x00000000#32))
    (broadcast S512x2048 (Scalar.ofBits (F := Ideal) .f32 0x3E000000#32))

/-- Each row's maximum from the word of −∞, as a column spread over the row. -/
private def rowMaxV (v : FVec Ideal S512x2048 .f32) : FVec Ideal S512x2048 .f32 :=
  broadcastTo S512x2048 (shapeCast S512x1 (multiReduction (F := Ideal) .maximumf [1] S512 v 0xFF800000#32
    reduces_S512x2048_S512 (.inl rfl) rfl) shapeCasts_S512_S512x1) broadcasts_S512x1_S512x2048

/-- Each row's sum from zero, as a column spread over the row. -/
private def rowSumV (v : FVec Ideal S512x2048 .f32) : FVec Ideal S512x2048 .f32 :=
  broadcastTo S512x2048 (shapeCast S512x1 (multiReduction (F := Ideal) .add [1] S512 v 0x00000000#32
    reduces_S512x2048_S512 (.inl rfl) rfl) shapeCasts_S512_S512x1) broadcasts_S512x1_S512x2048

/-- The probabilities' payload is the exponentials of the scores less their row maxima, over those exponentials' row sums. -/
private theorem pay1_eq (x0 : Vec Ideal S1x512x64 .bf16) (x1 : Vec Ideal S1x2048x64 .bf16) :
    k1_pay1 (F := Ideal) x0 x1
      = divf (exp (subf (scoresV x0 x1) (rowMaxV (scoresV x0 x1))))
          (rowSumV (exp (subf (scoresV x0 x1) (rowMaxV (scoresV x0 x1))))) := by
  unfold k1_pay1 scoresV rowMaxV rowSumV
  rfl

/-- A scaled score at (p, j): the query row p against the key row j, times 1/8. -/
private theorem scoresV_apply (x0 : Vec Ideal S1x512x64 .bf16) (x1 : Vec Ideal S1x2048x64 .bf16) (p : Fin 512) (j : Fin 2048) :
    scoresV x0 x1 (ix2 p j) = (∑ d : Fin 64, x0 (ix3 (0 : Fin 1) p d) * x1 (ix3 (0 : Fin 1) j d)) * Cert.Mha.scale := by
  unfold scoresV
  rw [mulf_apply, broadcast_apply, Cert.Lib.matmul_rr_apply dot_S512x64_S2048x64_S512x2048_1_1_0_0_n_n rfl rfl rfl rfl rfl rfl]
  simp only [shapeCast_1ab_ab_apply]
  exact congrArg (_ * ·) Cert.Mha.ofBits_eighth

/-- The spread row maximum at (p, j) is the maximum of row p taken from −∞. -/
private theorem rowMaxV_apply (v : FVec Ideal S512x2048 .f32) (p : Fin 512) (j : Fin 2048) :
    rowMaxV v (ix2 p j) = Cert.Mha.rowMax (fun j' : Fin 2048 => v (ix2 p j')) := by
  unfold rowMaxV
  rw [broadcastTo_a1_ab_apply, shapeCast_a_a1_apply]
  refine (Ideal.multiReduction_maximumf_single v 0xFF800000#32 reduces_S512x2048_S512 (.inl rfl) rfl (ix1 p)).trans ?_
  unfold Cert.Mha.rowMax
  rw [show (FloatOps.ofBits (F := Ideal) .f32 0xFF800000#32 : EReal) = ⊥ from Cert.Mha.ofBits_negInf]
  refine congrArg (Finset.fold max ⊥ · Finset.univ) (funext fun j' => congrArg v (funext fun a => Fin.ext ?_))
  match a with
  | ⟨0, _⟩ => rfl
  | ⟨1, _⟩ => rfl

/-- The spread row sum at (p, j) is the sum of row p. -/
private theorem rowSumV_apply (v : FVec Ideal S512x2048 .f32) (p : Fin 512) (j : Fin 2048) :
    rowSumV v (ix2 p j) = ∑ j' : Fin 2048, v (ix2 p j') := by
  unfold rowSumV
  rw [broadcastTo_a1_ab_apply, shapeCast_a_a1_apply]
  refine (Ideal.multiReduction_add_single v 0x00000000#32 reduces_S512x2048_S512 (.inl rfl) rfl (ix1 p)).trans ?_
  refine Finset.sum_congr rfl fun j' _ => congrArg v (funext fun a => Fin.ext ?_)
  match a with
  | ⟨0, _⟩ => rfl
  | ⟨1, _⟩ => rfl

/-- The probabilities' payload at (p, j): the softmax of query row p's scaled scores, at key j. -/
private theorem pay1_apply (x0 : Vec Ideal S1x512x64 .bf16) (x1 : Vec Ideal S1x2048x64 .bf16) (p : Fin 512) (j : Fin 2048) :
    k1_pay1 (F := Ideal) x0 x1 (ix2 p j)
      = Cert.Mha.softmax (fun j' : Fin 2048 => (∑ d : Fin 64, x0 (ix3 (0 : Fin 1) p d) * x1 (ix3 (0 : Fin 1) j' d)) * Cert.Mha.scale) j := by
  rw [pay1_eq, divf_apply, rowSumV_apply]
  show Ideal.div (Ideal.exp (scoresV x0 x1 (ix2 p j) - rowMaxV (scoresV x0 x1) (ix2 p j)))
      (∑ j' : Fin 2048, Ideal.exp (scoresV x0 x1 (ix2 p j') - rowMaxV (scoresV x0 x1) (ix2 p j'))) = _
  simp only [rowMaxV_apply, scoresV_apply]
  rfl

/-- The stored probabilities block at (0, p, j). -/
private theorem pay2_apply (x0 : Vec Ideal S1x512x64 .bf16) (x1 : Vec Ideal S1x2048x64 .bf16) (u : Fin 1) (p : Fin 512) (j : Fin 2048) :
    k1_pay2 (F := Ideal) x0 x1 (ix3 u p j)
      = Cert.Mha.softmax (fun j' : Fin 2048 => (∑ d : Fin 64, x0 (ix3 (0 : Fin 1) p d) * x1 (ix3 (0 : Fin 1) j' d)) * Cert.Mha.scale) j := by
  unfold k1_pay2
  exact (shapeCast_ab_1ab_apply _ shapeCasts_S512x2048_S1x512x2048 u p j).trans (pay1_apply x0 x1 p j)

/-- The stored values block at (0, p, d): the probabilities of query row p against the values' lane d. -/
private theorem pay3_apply (x0 : Vec Ideal S1x512x64 .bf16) (x1 x2 : Vec Ideal S1x2048x64 .bf16) (u : Fin 1) (p : Fin 512) (d : Fin 64) :
    k1_pay3 (F := Ideal) x0 x1 x2 (ix3 u p d)
      = ∑ j : Fin 2048, Cert.Mha.softmax (fun j' : Fin 2048 => (∑ d' : Fin 64, x0 (ix3 (0 : Fin 1) p d') * x1 (ix3 (0 : Fin 1) j' d')) * Cert.Mha.scale) j
          * x2 (ix3 (0 : Fin 1) j d) := by
  unfold k1_pay3
  refine (shapeCast_ab_1ab_apply _ shapeCasts_S512x64_S1x512x64 u p d).trans ?_
  rw [truncf_apply, Cert.Lib.matmul_rc_apply dot_S512x2048_S2048x64_S512x64_1_0_0_1_n_n rfl rfl rfl rfl rfl rfl]
  refine Finset.sum_congr rfl fun j _ => ?_
  rw [truncf_apply, pay1_apply, shapeCast_1ab_ab_apply]

/-! ## The two result arrays as functions of the three operand arrays -/

/-- The probabilities array over the query and key arrays: row `b`'s softmax of query `s`'s scaled scores, at key `k`. -/
private def attnG (Q K : S32x2048x64.Idx → EReal) : S32x2048x2048.Idx → EReal := fun i =>
  Cert.Mha.probs (fun s d => Q (ix3 (i 0) s d)) (fun s d => K (ix3 (i 0) s d)) (i 1) (i 2)

/-- The weighted-values array over the query, key and value arrays. -/
private def valsG (Q K W : S32x2048x64.Idx → EReal) : S32x2048x64.Idx → EReal := fun i =>
  Cert.Mha.wvals (fun s d => Q (ix3 (i 0) s d)) (fun s d => K (ix3 (i 0) s d)) (fun s d => W (ix3 (i 0) s d)) (i 1) (i 2)

/-- A probabilities block is the array's, when the query block is row `b`'s rows from `s` on and the key block is row `b`. -/
private theorem attn_block (Q K : S32x2048x64.Idx → EReal) (x0 : Vec Ideal S1x512x64 .bf16) (x1 : Vec Ideal S1x2048x64 .bf16)
    (b : Fin 32) (s k : Fin 2048) (u : Fin 1) (p : Fin 512)
    (h0 : ∀ d : Fin 64, x0 (ix3 (0 : Fin 1) p d) = Q (ix3 b s d))
    (h1 : ∀ (s' : Fin 2048) (d : Fin 64), x1 (ix3 (0 : Fin 1) s' d) = K (ix3 b s' d)) :
    k1_pay2 (F := Ideal) x0 x1 (ix3 u p k) = attnG Q K (ix3 b s k) := by
  rw [pay2_apply]
  simp only [h0, h1]
  rfl

/-- A values block is the array's, under the same reading of the query and key blocks and the value block row `b`. -/
private theorem vals_block (Q K W : S32x2048x64.Idx → EReal) (x0 : Vec Ideal S1x512x64 .bf16) (x1 x2 : Vec Ideal S1x2048x64 .bf16)
    (b : Fin 32) (s : Fin 2048) (e : Fin 64) (u : Fin 1) (p : Fin 512)
    (h0 : ∀ d : Fin 64, x0 (ix3 (0 : Fin 1) p d) = Q (ix3 b s d))
    (h1 : ∀ (s' : Fin 2048) (d : Fin 64), x1 (ix3 (0 : Fin 1) s' d) = K (ix3 b s' d))
    (h2 : ∀ (s' : Fin 2048) (d : Fin 64), x2 (ix3 (0 : Fin 1) s' d) = W (ix3 b s' d)) :
    k1_pay3 (F := Ideal) x0 x1 x2 (ix3 u p e) = valsG Q K W (ix3 b s e) := by
  rw [pay3_apply]
  simp only [h0, h1, h2]
  rfl

variable (V : (c : Dev nD) → (b : Ref sig .tc) → Buf (Elt Ideal) ((c : Thread nD τ).loc b))

/-! ## From the blocks to the arrays -/

private theorem offs_zero : (![0, 0, 0] : Fin 3 → Nat) = fun _ => 0 := funext fun a => by fin_cases a <;> rfl

/-- The printed index maps over the grid: the query block and both result blocks sit at (row, query block, 0); the key
    and value blocks at (row, 0, 0); the row is below 32 and the query block below 4. -/
private theorem index_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3)
    ∧ win1_3.index t (2 : Fin 3) = 0
    ∧ win1_4.index t (0 : Fin 3) ≤ 31 ∧ win1_4.index t (1 : Fin 3) ≤ 3 ∧ win1_4.index t (2 : Fin 3) = 0 :=
  (by decide +kernel : ∀ t : Fin grid1.N, _)

/-- Every (row, query block) is some point's. -/
private theorem index_onto : ∀ (q0 : Fin 32) (q1 : Fin 4), ∃ t : Fin cfg1.N, win1_4.index t = ![q0.val, q1.val, 0] :=
  (by decide +kernel : ∀ (q0 : Fin 32) (q1 : Fin 4), ∃ t : Fin grid1.N, win1_4.index t = ![q0.val, q1.val, 0])

/-- What point `t` writes back through the probabilities window is block `t` of the probabilities array. -/
private theorem flushed_attn (c : Dev nD) (t : Fin cfg1.N) :
    (dat1 V c).flushed 4 t = ((cfg1.win 4).blk t).view.read (Elt Ideal) (attnG (V c main_v9) (V c main_v10)) := by
  show (cfg1.win 4).cut (grid1.coords t) ((dat1 V c).after 4 t) = _
  rw [after1_4]
  unfold out1_4
  rw [View.canon_unit_zero offs_zero]
  simp only [View.ld_unit_zero (S := S1x512x64) offs_zero, View.ld_unit_zero (S := S1x2048x64) offs_zero]
  obtain ⟨e00, e01, e02, e10, e11, e12, e20, e21, e22, e30, e31, e32, b0, b1, e42⟩ := index_facts t
  refine funext fun (y : S1x512x2048.Idx) => ?_
  obtain ⟨u, p, k, rfl⟩ : ∃ (u : Fin 1) (p : Fin 512) (k : Fin 2048), y = ix3 u p k := ⟨y 0, y 1, y 2, eq_ix3 y⟩
  have hb : win1_4.index t (0 : Fin 3) < 32 := by omega
  have hs : win1_4.index t (1 : Fin 3) * 512 + p.val < 2048 := by have := p.isLt; omega
  have he : ((cfg1.win 4).blk t).view.emb (ix3 u p k)
      = ix3 (⟨win1_4.index t (0 : Fin 3), hb⟩ : Fin 32) (⟨win1_4.index t (1 : Fin 3) * 512 + p.val, hs⟩ : Fin 2048) k := by
    funext a; apply Fin.ext
    match a with
    | ⟨0, _⟩ => show win1_4.index t (0 : Fin 3) * 1 + 1 * u.val = win1_4.index t (0 : Fin 3); have := u.isLt; omega
    | ⟨1, _⟩ => show win1_4.index t (1 : Fin 3) * 512 + 1 * p.val = win1_4.index t (1 : Fin 3) * 512 + p.val; omega
    | ⟨2, _⟩ => show win1_4.index t (2 : Fin 3) * 2048 + 1 * k.val = k.val; omega
  show k1_pay2 (F := Ideal) (iblk1 V c 0 t) (iblk1 V c 1 t) (ix3 u p k)
    = attnG (V c main_v9) (V c main_v10) (((cfg1.win 4).blk t).view.emb (ix3 u p k))
  refine Eq.trans ?_ (congrArg (attnG (V c main_v9) (V c main_v10)) he).symm
  refine attn_block (V c main_v9) (V c main_v10) (iblk1 V c 0 t) (iblk1 V c 1 t)
    (⟨win1_4.index t (0 : Fin 3), hb⟩ : Fin 32) (⟨win1_4.index t (1 : Fin 3) * 512 + p.val, hs⟩ : Fin 2048) k u p
    (fun d => ?_) (fun s' d => ?_)
  · show V c main_v9 (((cfg1.win 0).blk t).view.emb (ix3 (0 : Fin 1) p d)) = V c main_v9 _
    refine congrArg (V c main_v9) (funext fun a => Fin.ext ?_)
    match a with
    | ⟨0, _⟩ => show win1_0.index t (0 : Fin 3) * 1 + 1 * 0 = win1_4.index t (0 : Fin 3); omega
    | ⟨1, _⟩ => show win1_0.index t (1 : Fin 3) * 512 + 1 * p.val = win1_4.index t (1 : Fin 3) * 512 + p.val; omega
    | ⟨2, _⟩ => show win1_0.index t (2 : Fin 3) * 64 + 1 * d.val = d.val; omega
  · show V c main_v10 (((cfg1.win 1).blk t).view.emb (ix3 (0 : Fin 1) s' d)) = V c main_v10 _
    refine congrArg (V c main_v10) (funext fun a => Fin.ext ?_)
    match a with
    | ⟨0, _⟩ => show win1_1.index t (0 : Fin 3) * 1 + 1 * 0 = win1_4.index t (0 : Fin 3); omega
    | ⟨1, _⟩ => show win1_1.index t (1 : Fin 3) * 2048 + 1 * s'.val = s'.val; omega
    | ⟨2, _⟩ => show win1_1.index t (2 : Fin 3) * 64 + 1 * d.val = d.val; omega

/-- What point `t` writes back through the values window is block `t` of the weighted-values array. -/
private theorem flushed_vals (c : Dev nD) (t : Fin cfg1.N) :
    (dat1 V c).flushed 3 t
      = ((cfg1.win 3).blk t).view.read (Elt Ideal) (valsG (V c main_v9) (V c main_v10) (V c main_v11)) := by
  show (cfg1.win 3).cut (grid1.coords t) ((dat1 V c).after 3 t) = _
  rw [after1_3]
  unfold out1_3
  rw [View.canon_unit_zero offs_zero]
  simp only [View.ld_unit_zero (S := S1x512x64) offs_zero, View.ld_unit_zero (S := S1x2048x64) offs_zero]
  obtain ⟨e00, e01, e02, e10, e11, e12, e20, e21, e22, e30, e31, e32, b0, b1, e42⟩ := index_facts t
  refine funext fun (y : S1x512x64.Idx) => ?_
  obtain ⟨u, p, e, rfl⟩ : ∃ (u : Fin 1) (p : Fin 512) (e : Fin 64), y = ix3 u p e := ⟨y 0, y 1, y 2, eq_ix3 y⟩
  have hb : win1_4.index t (0 : Fin 3) < 32 := by omega
  have hs : win1_4.index t (1 : Fin 3) * 512 + p.val < 2048 := by have := p.isLt; omega
  have he : ((cfg1.win 3).blk t).view.emb (ix3 u p e)
      = ix3 (⟨win1_4.index t (0 : Fin 3), hb⟩ : Fin 32) (⟨win1_4.index t (1 : Fin 3) * 512 + p.val, hs⟩ : Fin 2048) e := by
    funext a; apply Fin.ext
    match a with
    | ⟨0, _⟩ => show win1_3.index t (0 : Fin 3) * 1 + 1 * u.val = win1_4.index t (0 : Fin 3); have := u.isLt; omega
    | ⟨1, _⟩ => show win1_3.index t (1 : Fin 3) * 512 + 1 * p.val = win1_4.index t (1 : Fin 3) * 512 + p.val; omega
    | ⟨2, _⟩ => show win1_3.index t (2 : Fin 3) * 64 + 1 * e.val = e.val; omega
  show k1_pay3 (F := Ideal) (iblk1 V c 0 t) (iblk1 V c 1 t) (iblk1 V c 2 t) (ix3 u p e)
    = valsG (V c main_v9) (V c main_v10) (V c main_v11) (((cfg1.win 3).blk t).view.emb (ix3 u p e))
  refine Eq.trans ?_ (congrArg (valsG (V c main_v9) (V c main_v10) (V c main_v11)) he).symm
  refine vals_block (V c main_v9) (V c main_v10) (V c main_v11) (iblk1 V c 0 t) (iblk1 V c 1 t) (iblk1 V c 2 t)
    (⟨win1_4.index t (0 : Fin 3), hb⟩ : Fin 32) (⟨win1_4.index t (1 : Fin 3) * 512 + p.val, hs⟩ : Fin 2048) e u p
    (fun d => ?_) (fun s' d => ?_) (fun s' d => ?_)
  · show V c main_v9 (((cfg1.win 0).blk t).view.emb (ix3 (0 : Fin 1) p d)) = V c main_v9 _
    refine congrArg (V c main_v9) (funext fun a => Fin.ext ?_)
    match a with
    | ⟨0, _⟩ => show win1_0.index t (0 : Fin 3) * 1 + 1 * 0 = win1_4.index t (0 : Fin 3); omega
    | ⟨1, _⟩ => show win1_0.index t (1 : Fin 3) * 512 + 1 * p.val = win1_4.index t (1 : Fin 3) * 512 + p.val; omega
    | ⟨2, _⟩ => show win1_0.index t (2 : Fin 3) * 64 + 1 * d.val = d.val; omega
  · show V c main_v10 (((cfg1.win 1).blk t).view.emb (ix3 (0 : Fin 1) s' d)) = V c main_v10 _
    refine congrArg (V c main_v10) (funext fun a => Fin.ext ?_)
    match a with
    | ⟨0, _⟩ => show win1_1.index t (0 : Fin 3) * 1 + 1 * 0 = win1_4.index t (0 : Fin 3); omega
    | ⟨1, _⟩ => show win1_1.index t (1 : Fin 3) * 2048 + 1 * s'.val = s'.val; omega
    | ⟨2, _⟩ => show win1_1.index t (2 : Fin 3) * 64 + 1 * d.val = d.val; omega
  · show V c main_v11 (((cfg1.win 2).blk t).view.emb (ix3 (0 : Fin 1) s' d)) = V c main_v11 _
    refine congrArg (V c main_v11) (funext fun a => Fin.ext ?_)
    match a with
    | ⟨0, _⟩ => show win1_2.index t (0 : Fin 3) * 1 + 1 * 0 = win1_4.index t (0 : Fin 3); omega
    | ⟨1, _⟩ => show win1_2.index t (1 : Fin 3) * 2048 + 1 * s'.val = s'.val; omega
    | ⟨2, _⟩ => show win1_2.index t (2 : Fin 3) * 64 + 1 * d.val = d.val; omega

/-- An index of the probabilities array is in point `t`'s block iff each coordinate is in the block's range on its axis. -/
private theorem mem_blk_attn (t : Fin cfg1.N) (i : S32x2048x2048.Idx) :
    i ∈ ((cfg1.win 4).blk t).view.set ↔ ∀ a : Fin 3, win1_4.index t a * S1x512x2048.size a ≤ (i a).val
      ∧ (i a).val < win1_4.index t a * S1x512x2048.size a + S1x512x2048.size a := by
  show i ∈ ((View.whole main_v12_1).slice (win1_4.rect t)).set ↔ _
  rw [View.set_slice_whole, Rect.mem_set_unit]
  exact Iff.rfl

/-- The same for the weighted-values array. -/
private theorem mem_blk_vals (t : Fin cfg1.N) (i : S32x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v12_0).slice (win1_3.rect t)).set ↔ _
  rw [View.set_slice_whole, Rect.mem_set_unit]
  exact Iff.rfl

/-- Every index of the probabilities array is in the block of the point at its row and its query's block of 512. -/
private theorem cover_attn (i : S32x2048x2048.Idx) :
    ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_blk_attn]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 2048 ≤ (i 2).val ∧ (i 2).val < win1_4.index t (2 : Fin 3) * 2048 + 2048; omega

/-- The same for the weighted-values array. -/
private theorem cover_vals (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := index_onto ⟨(i 0).val, hi0⟩ ⟨(i 1).val / 512, by omega⟩
  obtain ⟨e00, e01, e02, e10, e11, e12, e20, e21, e22, e30, e31, e32, b0, b1, e42⟩ := index_facts t
  have q0 : win1_4.index t (0 : Fin 3) = (i 0).val := congrFun ht 0
  have q1 : win1_4.index t (1 : Fin 3) = (i 1).val / 512 := congrFun ht 1
  refine ⟨t, flush1_3 t, ?_⟩
  rw [mem_blk_vals]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The second pallas_call's probability array, whatever the buffers hold when it is entered: for the head-and-batch
    row `bh` the softmax of query `q`'s scaled scores against every key, at key `k`. -/
theorem final_attn (c : Dev nD) (bh : Fin 32) (q k : Fin 2048) :
    (dat1 V c).arrAt 4 cfg1.N (ix3 bh q k)
      = Cert.Mha.probs (fun s d => V c main_v9 (ix3 bh s d)) (fun s d => V c main_v10 (ix3 bh s d)) q k := by
  have h : (dat1 V c).arrAt 4 cfg1.N = attnG (V c main_v9) (V c main_v10) :=
    (dat1 V c).arrAt_eq_of_cover 4 (attnG (V c main_v9) (V c main_v10)) (fun t _ => flushed_attn V c t) cover_attn
  rw [h]
  rfl

/-- Its weighted-values array: those probabilities against the values, at lane `d`. -/
theorem final_vals (c : Dev nD) (bh : Fin 32) (q : Fin 2048) (d : Fin 64) :
    (dat1 V c).arrAt 3 cfg1.N (ix3 bh q d)
      = Cert.Mha.wvals (fun s d => V c main_v9 (ix3 bh s d)) (fun s d => V c main_v10 (ix3 bh s d))
          (fun s d => V c main_v11 (ix3 bh s d)) q d := by
  have h : (dat1 V c).arrAt 3 cfg1.N = valsG (V c main_v9) (V c main_v10) (V c main_v11) :=
    (dat1 V c).arrAt_eq_of_cover 3 (valsG (V c main_v9) (V c main_v10) (V c main_v11)) (fun t _ => flushed_vals V c t) cover_vals
  rw [h]
  rfl

end Cert.KernelIdeal.AttnRegion

end
-- ==== Proof.HostReads.lean ====
import proofs.«411648_j9225589752264_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostReads

open Idealize.ShloMosaic Idealize.ShloMosaic.TcCoe Idealize.ShloMosaic.ValueIdx Idealize.SL.Sem
open Cert.KernelIdeal Cert.KernelIdeal.Gen

/-! ## The layout operations of this program read at explicit coordinates

Each lemma reads one reshape, transpose or column cut at an index given by its coordinates; the operand's index is
named by the caller together with the row-major arithmetic that relates the two. -/

section Layout
variable {α : Type}

/-- 4096 rows of 1024 read as 2 batches of 2048 rows: row `r` is position `r % 2048` of batch `r / 2048`. -/
private theorem cast_rows (x : S2x2048x1024.Idx → α) (r : Fin 4096) (e : Fin 1024) (b : Fin 2) (s : Fin 2048)
    (hb : b.val = r.val / 2048) (hs : s.val = r.val % 2048) :
    shapeCast S4096x1024 x shapeCasts_S2x2048x1024_S4096x1024 (ix2 r e) = x (ix3 b s e) :=
  shapeCast_apply x _ _ _ (by
    rw [Shape.rowMajor_val_three, Shape.rowMajor_val_two]
    show (b.val * 2048 + s.val) * 1024 + e.val = r.val * 1024 + e.val
    rw [hb, hs]; omega)

/-- The inverse: batch `b`, position `s` is row `b * 2048 + s` of the 4096. -/
private theorem cast_batches (x : S4096x1024.Idx → α) (b : Fin 2) (s : Fin 2048) (f : Fin 1024) (r : Fin 4096)
    (hr : r.val = b.val * 2048 + s.val) :
    shapeCast S2x2048x1024 x shapeCasts_S4096x1024_S2x2048x1024 (ix3 b s f) = x (ix2 r f) :=
  shapeCast_apply x _ _ _ (by
    rw [Shape.rowMajor_val_two, Shape.rowMajor_val_three]
    show r.val * 1024 + f.val = (b.val * 2048 + s.val) * 1024 + f.val
    rw [hr])

/-- 3072 columns as 16 heads of 192: column `o` of head `h` is column `h * 192 + o`; rows as in `cast_batches`. -/
private theorem cast_heads (x : S4096x3072.Idx → α) (b : Fin 2) (s : Fin 2048) (h : Fin 16) (o : Fin 192) (r : Fin 4096) (f : Fin 3072)
    (hr : r.val = b.val * 2048 + s.val) (hf : f.val = h.val * 192 + o.val) :
    shapeCast S2x2048x16x192 x shapeCasts_S4096x3072_S2x2048x16x192 (ix4 b s h o) = x (ix2 r f) :=
  shapeCast_apply x _ _ _ (by
    rw [Shape.rowMajor_val_two, Shape.rowMajor_val_four]
    show r.val * 3072 + f.val = ((b.val * 2048 + s.val) * 16 + h.val) * 192 + o.val
    rw [hr, hf]; omega)

/-- Axes 1 and 2 of a rank-4 array exchanged. -/
private theorem transpose_0213 {n0 n1 n2 n3 : ℕ} (x : (⟨4, ![n0, n1, n2, n3]⟩ : Shape).Idx → α)
    (h : (⟨4, ![n0, n1, n2, n3]⟩ : Shape).Transposes [0, 2, 1, 3] ⟨4, ![n0, n2, n1, n3]⟩)
    (a : Fin n0) (b : Fin n2) (c : Fin n1) (d : Fin n3) :
    transpose ⟨4, ![n0, n2, n1, n3]⟩ [0, 2, 1, 3] x h (ix4 a b c d) = x (ix4 a c b d) :=
  transpose_apply _ x h _ _ fun k => match k with | ⟨0, _⟩ => rfl | ⟨1, _⟩ => rfl | ⟨2, _⟩ => rfl | ⟨3, _⟩ => rfl

/-- 64 of a head's 192 columns, from column `o`. -/
private theorem slice_cols (o : Nat) (x : S2x16x2048x192.Idx → α) (h : S2x16x2048x192.Slices ![0, 0, 0, o] S2x16x2048x64)
    (b : Fin 2) (hd : Fin 16) (s : Fin 2048) (d : Fin 64) (k : Fin 192) (hk : k.val = o + d.val) :
    extractStridedSlice S2x16x2048x64 ![0, 0, 0, o] x h (ix4 b hd s d) = x (ix4 b hd s k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- Batch and head merged into one axis of 32: `bh` is head `bh % 16` of batch `bh / 16`. -/
private theorem cast_merge (x : S2x16x2048x64.Idx → α) (bh : Fin 32) (s : Fin 2048) (d : Fin 64) (b : Fin 2) (h : Fin 16)
    (hb : b.val = bh.val / 16) (hh : h.val = bh.val % 16) :
    shapeCast S32x2048x64 x shapeCasts_S2x16x2048x64_S32x2048x64 (ix3 bh s d) = x (ix4 b h s d) :=
  shapeCast_apply x _ _ _ (by
    rw [Shape.rowMajor_val_four, Shape.rowMajor_val_three]
    show ((b.val * 16 + h.val) * 2048 + s.val) * 64 + d.val = (bh.val * 2048 + s.val) * 64 + d.val
    rw [hb, hh]; omega)

/-- The inverse: head `h` of batch `b` is `b * 16 + h` of the 32. -/
private theorem cast_split (x : S32x2048x64.Idx → α) (b : Fin 2) (h : Fin 16) (s : Fin 2048) (d : Fin 64) (bh : Fin 32)
    (hbh : bh.val = b.val * 16 + h.val) :
    shapeCast S2x16x2048x64 x shapeCasts_S32x2048x64_S2x16x2048x64 (ix4 b h s d) = x (ix3 bh s d) :=
  shapeCast_apply x _ _ _ (by
    rw [Shape.rowMajor_val_three, Shape.rowMajor_val_four]
    show (bh.val * 2048 + s.val) * 64 + d.val = ((b.val * 16 + h.val) * 2048 + s.val) * 64 + d.val
    rw [hbh])

/-- The same for the probabilities, whose last axis has 2048 keys. -/
private theorem cast_split_keys (x : S32x2048x2048.Idx → α) (b : Fin 2) (h : Fin 16) (q k : Fin 2048) (bh : Fin 32)
    (hbh : bh.val = b.val * 16 + h.val) :
    shapeCast S2x16x2048x2048 x shapeCasts_S32x2048x2048_S2x16x2048x2048 (ix4 b h q k) = x (ix3 bh q k) :=
  shapeCast_apply x _ _ _ (by
    rw [Shape.rowMajor_val_three, Shape.rowMajor_val_four]
    show (bh.val * 2048 + q.val) * 2048 + k.val = ((b.val * 16 + h.val) * 2048 + q.val) * 2048 + k.val
    rw [hbh])

/-- The heads side by side: row `r` as in `cast_rows`, column `e` is lane `e % 64` of head `e / 64`. -/
private theorem cast_cols (x : S2x2048x16x64.Idx → α) (r : Fin 4096) (e : Fin 1024) (b : Fin 2) (s : Fin 2048) (h : Fin 16) (d : Fin 64)
    (hb : b.val = r.val / 2048) (hs : s.val = r.val % 2048) (hh : h.val = e.val / 64) (hd : d.val = e.val % 64) :
    shapeCast S4096x1024 x shapeCasts_S2x2048x16x64_S4096x1024 (ix2 r e) = x (ix4 b s h d) :=
  shapeCast_apply x _ _ _ (by
    rw [Shape.rowMajor_val_four, Shape.rowMajor_val_two]
    show ((b.val * 2048 + s.val) * 16 + h.val) * 64 + d.val = r.val * 1024 + e.val
    rw [hb, hs, hh, hd]; omega)

end Layout

variable (m : (ℓ : Loc nD τ sig) → Buf (Elt Ideal) ℓ) (ρ : Dev nD → PrngReg)

/-! ## Before the first pallas_call: the weights re-typed (no change on the extended reals), x as 4096 rows -/

/-- The 4096 rows are the reshape of the launch contents of x. -/
private theorem v2_eq (c : Dev nD) :
    (V1 m ρ c main_v2 : S4096x1024.Idx → EReal)
      = shapeCast S4096x1024 (m ((c : Thread nD τ).loc main_arg0)) shapeCasts_S2x2048x1024_S4096x1024 := by
  show StableHlo.after hostOps0 (W0 m ρ c) (Proc.devRef .tc main_v2) = _
  after_results
  rfl

/-- Row `r` of the 4096 is position `r % 2048` of batch `r / 2048`. -/
theorem v2_apply (c : Dev nD) (r : Fin 4096) (e : Fin 1024) :
    V1 m ρ c main_v2 (ix2 r e)
      = m ((c : Thread nD τ).loc main_arg0)
          (ix3 ⟨r.val / 2048, by have := r.isLt; omega⟩ ⟨r.val % 2048, Nat.mod_lt _ (by omega)⟩ e) := by
  refine (congrFun (v2_eq m ρ c) (ix2 r e)).trans ?_
  exact cast_rows _ r e _ _ rfl rfl

/-- The projection weights re-typed. -/
private theorem v0_eq (c : Dev nD) :
    @Eq (FVec Ideal S3072x1024 .bf16) (V1 m ρ c main_v0)
      (truncf .bf16 (m ((c : Thread nD τ).loc main_arg1) : FVec Ideal S3072x1024 .f32) bitsLt_bf16_f32) := by
  show StableHlo.after hostOps0 (W0 m ρ c) (Proc.devRef .tc main_v0) = _
  after_results

theorem v0_apply (c : Dev nD) (f : Fin 3072) (e : Fin 1024) :
    V1 m ρ c main_v0 (ix2 f e) = m ((c : Thread nD τ).loc main_arg1) (ix2 f e) := by
  refine (congrFun (v0_eq m ρ c) (ix2 f e)).trans ?_
  exact truncf_apply _ _ _

/-- The bias of the first projection is written by nothing before the first pallas_call. -/
private theorem arg2_eq1 (c : Dev nD) : V1 m ρ c main_arg2 = m ((c : Thread nD τ).loc main_arg2) := by
  show StableHlo.after hostOps0 (W0 m ρ c) (Proc.devRef .tc main_arg2) = _
  after_results

theorem arg2_at1 (c : Dev nD) (f : Fin 3072) :
    V1 m ρ c main_arg2 (ix1 f) = m ((c : Thread nD τ).loc main_arg2) (ix1 f) :=
  congrFun (arg2_eq1 m ρ c) (ix1 f)

/-! ## Between the first and the second: the 3072 columns as 16 heads of 192, heads moved in front of positions,
    each head's columns cut into q, k and v, batch and head merged into one axis of 32 -/

/-- The chain of layout operations from the first pallas_call's result to one of q, k, v (the cut from column `o`),
    read at an index: the row is position `s` of batch `bh / 16`, the column is lane `d` of part `o` of head
    `bh % 16`. -/
private theorem part_apply {α : Type} (o : Nat) (ho : o ≤ 128) (x : S4096x3072.Idx → α)
    (h : S2x16x2048x192.Slices ![0, 0, 0, o] S2x16x2048x64) (bh : Fin 32) (s : Fin 2048) (d : Fin 64) :
    shapeCast S32x2048x64
        (extractStridedSlice S2x16x2048x64 ![0, 0, 0, o]
          (transpose S2x16x2048x192 [0, 2, 1, 3]
            (shapeCast S2x2048x16x192 x shapeCasts_S4096x3072_S2x2048x16x192)
            transposes_S2x2048x16x192_S2x16x2048x192_0_2_1_3) h)
        shapeCasts_S2x16x2048x64_S32x2048x64 (ix3 bh s d)
      = x (ix2 ⟨bh.val / 16 * 2048 + s.val, by have := bh.isLt; have := s.isLt; omega⟩
            ⟨bh.val % 16 * 192 + o + d.val, by have := d.isLt; omega⟩) := by
  refine (cast_merge _ bh s d ⟨bh.val / 16, by have := bh.isLt; omega⟩ ⟨bh.val % 16, Nat.mod_lt _ (by omega)⟩ rfl rfl).trans ?_
  refine (slice_cols o _ h _ _ s d ⟨o + d.val, by have := d.isLt; omega⟩ rfl).trans ?_
  refine (transpose_0213 _ _ _ _ _ _).trans ?_
  exact cast_heads x _ s _ _ _ _ rfl (Nat.add_assoc (bh.val % 16 * 192) o d.val)

private theorem v9_eq (c : Dev nD) :
    (V3 m ρ c main_v9 : S32x2048x64.Idx → EReal)
      = shapeCast S32x2048x64
          (extractStridedSlice S2x16x2048x64 ![0, 0, 0, 0]
            (transpose S2x16x2048x192 [0, 2, 1, 3]
              (shapeCast S2x2048x16x192 (W2 m ρ c (Proc.devRef .tc main_v3) : S4096x3072.Idx → EReal)
                shapeCasts_S4096x3072_S2x2048x16x192)
              transposes_S2x2048x16x192_S2x16x2048x192_0_2_1_3)
            slices_S2x16x2048x192_S2x16x2048x64_0_0_0_0)
          shapeCasts_S2x16x2048x64_S32x2048x64 := by
  show StableHlo.after hostOps1 (W2 m ρ c) (Proc.devRef .tc main_v9) = _
  after_results
  rfl

private theorem v10_eq (c : Dev nD) :
    (V3 m ρ c main_v10 : S32x2048x64.Idx → EReal)
      = shapeCast S32x2048x64
          (extractStridedSlice S2x16x2048x64 ![0, 0, 0, 64]
            (transpose S2x16x2048x192 [0, 2, 1, 3]
              (shapeCast S2x2048x16x192 (W2 m ρ c (Proc.devRef .tc main_v3) : S4096x3072.Idx → EReal)
                shapeCasts_S4096x3072_S2x2048x16x192)
              transposes_S2x2048x16x192_S2x16x2048x192_0_2_1_3)
            slices_S2x16x2048x192_S2x16x2048x64_0_0_0_64)
          shapeCasts_S2x16x2048x64_S32x2048x64 := by
  show StableHlo.after hostOps1 (W2 m ρ c) (Proc.devRef .tc main_v10) = _
  after_results
  rfl

private theorem v11_eq (c : Dev nD) :
    (V3 m ρ c main_v11 : S32x2048x64.Idx → EReal)
      = shapeCast S32x2048x64
          (extractStridedSlice S2x16x2048x64 ![0, 0, 0, 128]
            (transpose S2x16x2048x192 [0, 2, 1, 3]
              (shapeCast S2x2048x16x192 (W2 m ρ c (Proc.devRef .tc main_v3) : S4096x3072.Idx → EReal)
                shapeCasts_S4096x3072_S2x2048x16x192)
              transposes_S2x2048x16x192_S2x16x2048x192_0_2_1_3)
            slices_S2x16x2048x192_S2x16x2048x64_0_0_0_128)
          shapeCasts_S2x16x2048x64_S32x2048x64 := by
  show StableHlo.after hostOps1 (W2 m ρ c) (Proc.devRef .tc main_v11) = _
  after_results
  rfl

/-- The first pallas_call's result array is what its write-backs leave. -/
private theorem v3_eq (c : Dev nD) : W2 m ρ c (Proc.devRef .tc main_v3) = (dat0 (V1 m ρ) c).arrAt 3 cfg0.N :=
  W2_arr m ρ c 3

theorem v9_apply (c : Dev nD) (bh : Fin 32) (s : Fin 2048) (d : Fin 64) :
    V3 m ρ c main_v9 (ix3 bh s d)
      = (dat0 (V1 m ρ) c).arrAt 3 cfg0.N
          (ix2 ⟨bh.val / 16 * 2048 + s.val, by have := bh.isLt; have := s.isLt; omega⟩
            ⟨bh.val % 16 * 192 + 0 + d.val, by have := d.isLt; omega⟩) := by
  refine (congrFun (v9_eq m ρ c) (ix3 bh s d)).trans ?_
  refine (part_apply 0 (by omega) _ _ bh s d).trans ?_
  exact congrFun (v3_eq m ρ c) _

theorem v10_apply (c : Dev nD) (bh : Fin 32) (s : Fin 2048) (d : Fin 64) :
    V3 m ρ c main_v10 (ix3 bh s d)
      = (dat0 (V1 m ρ) c).arrAt 3 cfg0.N
          (ix2 ⟨bh.val / 16 * 2048 + s.val, by have := bh.isLt; have := s.isLt; omega⟩
            ⟨bh.val % 16 * 192 + 64 + d.val, by have := d.isLt; omega⟩) := by
  refine (congrFun (v10_eq m ρ c) (ix3 bh s d)).trans ?_
  refine (part_apply 64 (by omega) _ _ bh s d).trans ?_
  exact congrFun (v3_eq m ρ c) _

theorem v11_apply (c : Dev nD) (bh : Fin 32) (s : Fin 2048) (d : Fin 64) :
    V3 m ρ c main_v11 (ix3 bh s d)
      = (dat0 (V1 m ρ) c).arrAt 3 cfg0.N
          (ix2 ⟨bh.val / 16 * 2048 + s.val, by have := bh.isLt; have := s.isLt; omega⟩
            ⟨bh.val % 16 * 192 + 128 + d.val, by have := d.isLt; omega⟩) := by
  refine (congrFun (v11_eq m ρ c) (ix3 bh s d)).trans ?_
  refine (part_apply 128 (by omega) _ _ bh s d).trans ?_
  exact congrFun (v3_eq m ρ c) _

/-! ## Between the second and the third: the heads side by side again -/

/-- The chain from the second pallas_call's weighted values to the third's rows, read at an index. -/
private theorem merged_apply {α : Type} (x : S32x2048x64.Idx → α) (r : Fin 4096) (e : Fin 1024) :
    shapeCast S4096x1024
        (transpose S2x2048x16x64 [0, 2, 1, 3]
          (shapeCast S2x16x2048x64 x shapeCasts_S32x2048x64_S2x16x2048x64)
          transposes_S2x16x2048x64_S2x2048x16x64_0_2_1_3)
        shapeCasts_S2x2048x16x64_S4096x1024 (ix2 r e)
      = x (ix3 ⟨r.val / 2048 * 16 + e.val / 64, by have := r.isLt; have := e.isLt; omega⟩
            ⟨r.val % 2048, Nat.mod_lt _ (by omega)⟩ ⟨e.val % 64, Nat.mod_lt _ (by omega)⟩) := by
  refine (cast_cols _ r e ⟨r.val / 2048, by have := r.isLt; omega⟩ ⟨r.val % 2048, Nat.mod_lt _ (by omega)⟩
    ⟨e.val / 64, by have := e.isLt; omega⟩ ⟨e.val % 64, Nat.mod_lt _ (by omega)⟩ rfl rfl rfl rfl).trans ?_
  refine (transpose_0213 _ _ _ _ _ _).trans ?_
  exact cast_split x _ _ _ _ _ rfl

private theorem v15_eq (c : Dev nD) :
    (V5 m ρ c main_v15 : S4096x1024.Idx → EReal)
      = shapeCast S4096x1024
          (transpose S2x2048x16x64 [0, 2, 1, 3]
            (shapeCast S2x16x2048x64 (W4 m ρ c (Proc.devRef .tc main_v12_0) : S32x2048x64.Idx → EReal)
              shapeCasts_S32x2048x64_S2x16x2048x64)
            transposes_S2x16x2048x64_S2x2048x16x64_0_2_1_3)
          shapeCasts_S2x2048x16x64_S4096x1024 := by
  show StableHlo.after hostOps2 (W4 m ρ c) (Proc.devRef .tc main_v15) = _
  after_results
  rfl

/-- The second pallas_call's two result arrays are what its write-backs leave. -/
private theorem v12_0_eq (c : Dev nD) : W4 m ρ c (Proc.devRef .tc main_v12_0) = (dat1 (V3 m ρ) c).arrAt 3 cfg1.N :=
  W4_arr m ρ c 3
private theorem v12_1_eq (c : Dev nD) : W4 m ρ c (Proc.devRef .tc main_v12_1) = (dat1 (V3 m ρ) c).arrAt 4 cfg1.N :=
  W4_arr m ρ c 4

theorem v15_apply (c : Dev nD) (r : Fin 4096) (e : Fin 1024) :
    V5 m ρ c main_v15 (ix2 r e)
      = (dat1 (V3 m ρ) c).arrAt 3 cfg1.N
          (ix3 ⟨r.val / 2048 * 16 + e.val / 64, by have := r.isLt; have := e.isLt; omega⟩
            ⟨r.val % 2048, Nat.mod_lt _ (by omega)⟩ ⟨e.val % 64, Nat.mod_lt _ (by omega)⟩) := by
  refine (congrFun (v15_eq m ρ c) (ix2 r e)).trans ?_
  refine (merged_apply _ r e).trans ?_
  exact congrFun (v12_0_eq m ρ c) _

/-- The output weights are re-typed before the first pallas_call; no later operation and no pallas_call writes them. -/
private theorem v1_eq5 (c : Dev nD) :
    @Eq (FVec Ideal S1024x1024 .bf16) (V5 m ρ c main_v1)
      (truncf .bf16 (m ((c : Thread nD τ).loc main_arg3) : FVec Ideal S1024x1024 .f32) bitsLt_bf16_f32) :=
  calc W5 m ρ c (Proc.devRef .tc main_v1)
    _ = W4 m ρ c (Proc.devRef .tc main_v1) := by
          show StableHlo.after hostOps2 (W4 m ρ c) (Proc.devRef .tc main_v1) = _
          after_results
    _ = W3 m ρ c (Proc.devRef .tc main_v1) := W4_of_ne m ρ c main_v1 (by decide)
    _ = W2 m ρ c (Proc.devRef .tc main_v1) := by
          show StableHlo.after hostOps1 (W2 m ρ c) (Proc.devRef .tc main_v1) = _
          after_results
    _ = W1 m ρ c (Proc.devRef .tc main_v1) := W2_of_ne m ρ c main_v1 (by decide)
    _ = _ := by
          show StableHlo.after hostOps0 (W0 m ρ c) (Proc.devRef .tc main_v1) = _
          after_results

/-- The output weights, re-typed before the first pallas_call, are still there at the third. -/
theorem v1_at5 (c : Dev nD) (f e : Fin 1024) :
    V5 m ρ c main_v1 (ix2 f e) = m ((c : Thread nD τ).loc main_arg3) (ix2 f e) := by
  refine (congrFun (v1_eq5 m ρ c) (ix2 f e)).trans ?_
  exact truncf_apply _ _ _

/-- The output bias is written by nothing before the third pallas_call. -/
private theorem arg4_eq5 (c : Dev nD) : V5 m ρ c main_arg4 = m ((c : Thread nD τ).loc main_arg4) :=
  calc W5 m ρ c (Proc.devRef .tc main_arg4)
    _ = W4 m ρ c (Proc.devRef .tc main_arg4) := by
          show StableHlo.after hostOps2 (W4 m ρ c) (Proc.devRef .tc main_arg4) = _
          after_results
    _ = W3 m ρ c (Proc.devRef .tc main_arg4) := W4_of_ne m ρ c main_arg4 (by decide)
    _ = W2 m ρ c (Proc.devRef .tc main_arg4) := by
          show StableHlo.after hostOps1 (W2 m ρ c) (Proc.devRef .tc main_arg4) = _
          after_results
    _ = W1 m ρ c (Proc.devRef .tc main_arg4) := W2_of_ne m ρ c main_arg4 (by decide)
    _ = _ := by
          show StableHlo.after hostOps0 (W0 m ρ c) (Proc.devRef .tc main_arg4) = _
          after_results

theorem arg4_at5 (c : Dev nD) (f : Fin 1024) :
    V5 m ρ c main_arg4 (ix1 f) = m ((c : Thread nD τ).loc main_arg4) (ix1 f) :=
  congrFun (arg4_eq5 m ρ c) (ix1 f)

/-! ## After the third: the two results in their returned shapes -/

private theorem v17_eq (c : Dev nD) :
    (W7 m ρ c (Proc.devRef .tc main_v17) : S2x2048x1024.Idx → EReal)
      = shapeCast S2x2048x1024 (W6 m ρ c (Proc.devRef .tc main_v16) : S4096x1024.Idx → EReal)
          shapeCasts_S4096x1024_S2x2048x1024 := by
  show StableHlo.after hostOps3 (W6 m ρ c) (Proc.devRef .tc main_v17) = _
  after_results
  rfl

/-- The third pallas_call's result array is what its write-backs leave. -/
private theorem v16_eq (c : Dev nD) : W6 m ρ c (Proc.devRef .tc main_v16) = (dat2 (V5 m ρ) c).arrAt 3 cfg2.N :=
  W6_arr m ρ c 3

theorem v17_apply (c : Dev nD) (b : Fin 2) (s : Fin 2048) (f : Fin 1024) :
    W7 m ρ c (Proc.devRef .tc main_v17) (ix3 b s f)
      = (dat2 (V5 m ρ) c).arrAt 3 cfg2.N (ix2 ⟨b.val * 2048 + s.val, by have := b.isLt; have := s.isLt; omega⟩ f) := by
  refine (congrFun (v17_eq m ρ c) (ix3 b s f)).trans ?_
  refine (cast_batches _ b s f ⟨b.val * 2048 + s.val, by have := b.isLt; have := s.isLt; omega⟩ rfl).trans ?_
  exact congrFun (v16_eq m ρ c) _

/-- The probabilities, a result of the second pallas_call, are written by nothing up to the last stretch. -/
private theorem v12_1_eq6 (c : Dev nD) : W6 m ρ c (Proc.devRef .tc main_v12_1) = (dat1 (V3 m ρ) c).arrAt 4 cfg1.N :=
  calc W6 m ρ c (Proc.devRef .tc main_v12_1)
    _ = W5 m ρ c (Proc.devRef .tc main_v12_1) := W6_of_ne m ρ c main_v12_1 (by decide)
    _ = W4 m ρ c (Proc.devRef .tc main_v12_1) := by
          show StableHlo.after hostOps2 (W4 m ρ c) (Proc.devRef .tc main_v12_1) = _
          after_results
    _ = _ := v12_1_eq m ρ c

private theorem v18_eq (c : Dev nD) :
    (W7 m ρ c (Proc.devRef .tc main_v18) : S2x16x2048x2048.Idx → EReal)
      = shapeCast S2x16x2048x2048 (W6 m ρ c (Proc.devRef .tc main_v12_1) : S32x2048x2048.Idx → EReal)
          shapeCasts_S32x2048x2048_S2x16x2048x2048 := by
  show StableHlo.after hostOps3 (W6 m ρ c) (Proc.devRef .tc main_v18) = _
  after_results
  rfl

theorem v18_apply (c : Dev nD) (b : Fin 2) (h : Fin 16) (q k : Fin 2048) :
    W7 m ρ c (Proc.devRef .tc main_v18) (ix4 b h q k)
      = (dat1 (V3 m ρ) c).arrAt 4 cfg1.N (ix3 ⟨b.val * 16 + h.val, by have := b.isLt; have := h.isLt; omega⟩ q k) := by
  refine (congrFun (v18_eq m ρ c) (ix4 b h q k)).trans ?_
  refine (cast_split_keys _ b h q k ⟨b.val * 16 + h.val, by have := b.isLt; have := h.isLt; omega⟩ rfl).trans ?_
  exact congrFun (v12_1_eq6 m ρ c) _

end Cert.KernelIdeal.HostReads

end
-- ==== Proof.KValue.lean ====
/-
  The kernel's program computes the layer of Proof/Spec.lean: its two result buffers at the last boundary, read back
  through the reshapes after the third pallas_call, the third call's result array, the merge of the heads, the second
  call's two result arrays, the split into heads and the first call's result array, down to the launch arrays. Every
  step is one of the read-at-an-index facts of Proof/HostReads, Proof/Proj0, Proof/AttnRegion and Proof/Proj2; what is
  left here is the row-major arithmetic that identifies their coordinates: row `b·2048 + s` of the 4096 is position `s` of
  batch `b`, row `b·16 + h` of the 32 is head `h` of batch `b`, column `e` of the 1024 is lane `e % 64` of head `e / 64`.
-/
import proofs.«411648_j9225589752264_3_alg».proof.Proof.KRun
import proofs.«411648_j9225589752264_3_alg».proof.Proof.Proj0
import proofs.«411648_j9225589752264_3_alg».proof.Proof.Proj2
import proofs.«411648_j9225589752264_3_alg».proof.Proof.AttnRegion
import proofs.«411648_j9225589752264_3_alg».proof.Proof.HostReads

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen
open Cert.KernelIdeal.HostReads

variable (m : (ℓ : Loc nD τ sig) → Buf (Elt Ideal) ℓ) (ρ : Dev nD → PrngReg)

/-- The launch arrays by coordinates. -/
abbrev X (c : Dev nD) : Fin 2 → Fin 2048 → Fin 1024 → EReal := fun b s e => m ((c.tc : Thread nD τ).loc main_arg0) (ix3 b s e)
abbrev WQ (c : Dev nD) : Fin 3072 → Fin 1024 → EReal := fun f e => m ((c.tc : Thread nD τ).loc main_arg1) (ix2 f e)
abbrev BQ (c : Dev nD) : Fin 3072 → EReal := fun f => m ((c.tc : Thread nD τ).loc main_arg2) (ix1 f)
abbrev WO (c : Dev nD) : Fin 1024 → Fin 1024 → EReal := fun f e => m ((c.tc : Thread nD τ).loc main_arg3) (ix2 f e)
abbrev BO (c : Dev nD) : Fin 1024 → EReal := fun f => m ((c.tc : Thread nD τ).loc main_arg4) (ix1 f)

/-- The first call's result array at row `r`: the fused projection at batch `r / 2048`, position `r % 2048`. -/
theorem qkv_flat (c : Dev nD) (r : Fin 4096) (f : Fin 3072) :
    (dat0 (V1 m ρ) c).arrAt 3 cfg0.N (ix2 r f)
      = Cert.Mha.qkv (X m c) (WQ m c) (BQ m c) ⟨r.val / 2048, by have := r.isLt; omega⟩
          ⟨r.val % 2048, Nat.mod_lt _ (by omega)⟩ f := by
  rw [Cert.KernelIdeal.Proj0.final (V1 m ρ) c r f]
  unfold Cert.Mha.qkv Cert.Mha.lin
  refine congrArg₂ (· + ·) (Finset.sum_congr rfl fun k _ => ?_) (arg2_at1 m ρ c f)
  beta_reduce
  rw [v2_apply m ρ c r k, v0_apply m ρ c f k]

/-- Row `bh = b·16 + h` of the queries the second call is handed is head `h` of batch `b`. -/
theorem hq_eq (c : Dev nD) (bh : Fin 32) (b : Fin 2) (h : Fin 16) (hb : bh.val = b.val * 16 + h.val) :
    (fun (s : Fin 2048) (d : Fin 64) => V3 m ρ c main_v9 (ix3 bh s d)) = Cert.Mha.hq (X m c) (WQ m c) (BQ m c) b h := by
  funext s d
  rw [v9_apply, qkv_flat]
  unfold Cert.Mha.hq
  have hh := h.isLt; have hs := s.isLt; have hd := d.isLt
  congr 1
  · exact Fin.ext (by show (bh.val / 16 * 2048 + s.val) / 2048 = b.val; omega)
  · exact Fin.ext (by show (bh.val / 16 * 2048 + s.val) % 2048 = s.val; omega)
  · exact Fin.ext (by show bh.val % 16 * 192 + 0 + d.val = h.val * 192 + 0 + d.val; omega)

/-- The same for the keys. -/
theorem hk_eq (c : Dev nD) (bh : Fin 32) (b : Fin 2) (h : Fin 16) (hb : bh.val = b.val * 16 + h.val) :
    (fun (s : Fin 2048) (d : Fin 64) => V3 m ρ c main_v10 (ix3 bh s d)) = Cert.Mha.hk (X m c) (WQ m c) (BQ m c) b h := by
  funext s d
  rw [v10_apply, qkv_flat]
  unfold Cert.Mha.hk
  have hh := h.isLt; have hs := s.isLt; have hd := d.isLt
  congr 1
  · exact Fin.ext (by show (bh.val / 16 * 2048 + s.val) / 2048 = b.val; omega)
  · exact Fin.ext (by show (bh.val / 16 * 2048 + s.val) % 2048 = s.val; omega)
  · exact Fin.ext (by show bh.val % 16 * 192 + 64 + d.val = h.val * 192 + 64 + d.val; omega)

/-- The same for the values. -/
theorem hv_eq (c : Dev nD) (bh : Fin 32) (b : Fin 2) (h : Fin 16) (hb : bh.val = b.val * 16 + h.val) :
    (fun (s : Fin 2048) (d : Fin 64) => V3 m ρ c main_v11 (ix3 bh s d)) = Cert.Mha.hv (X m c) (WQ m c) (BQ m c) b h := by
  funext s d
  rw [v11_apply, qkv_flat]
  unfold Cert.Mha.hv
  have hh := h.isLt; have hs := s.isLt; have hd := d.isLt
  congr 1
  · exact Fin.ext (by show (bh.val / 16 * 2048 + s.val) / 2048 = b.val; omega)
  · exact Fin.ext (by show (bh.val / 16 * 2048 + s.val) % 2048 = s.val; omega)
  · exact Fin.ext (by show bh.val % 16 * 192 + 128 + d.val = h.val * 192 + 128 + d.val; omega)

/-- The second result at (b, h, q, k): the layer's probabilities. -/
theorem attn_at (c : Dev nD) (b : Fin 2) (h : Fin 16) (q k : Fin 2048) :
    W7 m ρ c (Proc.devRef .tc main_v18) (ix4 b h q k) = Cert.Mha.attn (X m c) (WQ m c) (BQ m c) b h q k := by
  rw [v18_apply, Cert.KernelIdeal.AttnRegion.final_attn (V3 m ρ) c]
  rw [hq_eq m ρ c _ b h rfl, hk_eq m ρ c _ b h rfl]
  rfl

/-- The second call's values array at row `bh = b·16 + h`: the layer's weighted values of head `h`. -/
theorem vals_flat (c : Dev nD) (bh : Fin 32) (b : Fin 2) (h : Fin 16) (hb : bh.val = b.val * 16 + h.val)
    (q : Fin 2048) (d : Fin 64) :
    (dat1 (V3 m ρ) c).arrAt 3 cfg1.N (ix3 bh q d) = Cert.Mha.vals (X m c) (WQ m c) (BQ m c) b h q d := by
  rw [Cert.KernelIdeal.AttnRegion.final_vals (V3 m ρ) c]
  rw [hq_eq m ρ c bh b h hb, hk_eq m ρ c bh b h hb, hv_eq m ρ c bh b h hb]
  rfl

/-- Row `r = b·2048 + s` of what the third call is handed: the heads side by side at batch `b`, position `s`. -/
theorem merged_flat (c : Dev nD) (r : Fin 4096) (b : Fin 2) (s : Fin 2048) (hr : r.val = b.val * 2048 + s.val)
    (e : Fin 1024) :
    V5 m ρ c main_v15 (ix2 r e) = Cert.Mha.merged (X m c) (WQ m c) (BQ m c) b s e := by
  have hs := s.isLt; have he := e.isLt
  rw [v15_apply]
  unfold Cert.Mha.merged
  rw [vals_flat m ρ c _ b ⟨e.val / 64, by omega⟩ (by show r.val / 2048 * 16 + e.val / 64 = b.val * 16 + e.val / 64; omega)]
  congr 1
  exact Fin.ext (by show r.val % 2048 = s.val; omega)

/-- The first result at (b, s, f): the layer's output. -/
theorem out_at (c : Dev nD) (b : Fin 2) (s : Fin 2048) (f : Fin 1024) :
    W7 m ρ c (Proc.devRef .tc main_v17) (ix3 b s f)
      = Cert.Mha.out (X m c) (WQ m c) (BQ m c) (WO m c) (BO m c) b s f := by
  rw [v17_apply, Cert.KernelIdeal.Proj2.final (V5 m ρ) c]
  unfold Cert.Mha.out Cert.Mha.lin
  refine congrArg₂ (· + ·) (Finset.sum_congr rfl fun e _ => ?_) (arg4_at5 m ρ c f)
  beta_reduce
  rw [merged_flat m ρ c _ b s rfl e, v1_at5 m ρ c f e]

/-- What the kernel's program leaves in its second result: the layer's probabilities of the launch arrays. -/
theorem attn_eq (c : Dev nD) :
    W7 m ρ c (Proc.devRef .tc main_v18)
      = Cert.Mha.attnArr (m ((c.tc : Thread nD τ).loc main_arg0)) (m ((c.tc : Thread nD τ).loc main_arg1))
          (m ((c.tc : Thread nD τ).loc main_arg2)) := by
  funext j
  rw [eq_ix4 j]
  exact attn_at m ρ c (j 0) (j 1) (j 2) (j 3)

/-- What it leaves in its first result: the layer's output of the launch arrays. -/
theorem out_eq (c : Dev nD) :
    W7 m ρ c (Proc.devRef .tc main_v17)
      = Cert.Mha.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  funext j
  rw [eq_ix3 j]
  exact out_at m ρ c (j 0) (j 1) (j 2)

/-- The kernel's run, with both results named by the layer's two arrays of the argument arrays. -/
theorem run_spec :
    θ_run (defs (F := Ideal)) (onTc (τ := τ) (main (F := Ideal))) ⟨m, fun _ => 0, ρ⟩ fun r => ∀ c : Dev nD,
      r.2.mem ((c.tc : Thread nD τ).loc main_v17)
          = Cert.Mha.outArr (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v18)
          = Cert.Mha.attnArr (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
    ⟨(h c).1.trans (out_eq m ρ c), (h c).2.1.trans (attn_eq m ρ c), (h c).2.2⟩)
    (Cert.KernelIdeal.ValueRun.run (F := Ideal) m ρ)

end Cert.KernelIdeal.KValue

end
-- ==== Proof.RefValue.lean ====
import proofs.«411648_j9225589752264_3_alg».proof.Proof.Gen.ReferenceIdeal.Run
import proofs.«411648_j9225589752264_3_alg».proof.Proof.Gen.ReferenceIdeal.Read
import proofs.«411648_j9225589752264_3_alg».proof.Proof.Spec

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

section Stages

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The three argument arrays of the fused projection, by coordinates. -/
local notation "X" => (fun (b : Fin 2) (s : Fin 2048) (e : Fin 1024) => x0 (ix3 b s e))
local notation "WQ" => (fun (f : Fin 3072) (e : Fin 1024) => x1 (ix2 f e))
local notation "BQ" => (fun (f : Fin 3072) => x2 (ix1 f))

/-- The fused projection: the contraction over the 1024 inputs plus the bias of the column. -/
private theorem qkv_at (b : Fin 2) (s : Fin 2048) (f : Fin 3072) :
    val_main_v3 (F := Ideal) x0 x1 x2 (ix3 b s f) = Cert.Mha.qkv X WQ BQ b s f := by
  rw [val_main_v3_apply, val_main_v0_apply, val_main_v2_apply, val_main_v1_apply]
  have e1 : ∀ k : Fin 1024, lidx_main_v0 (ix3 b s f) k = ix3 b s k := fun k => funext fun a => by
    match a with
    | ⟨0, _⟩ => rfl
    | ⟨1, _⟩ => rfl
    | ⟨2, _⟩ => rfl
  have e2 : ∀ k : Fin 1024, ridx_main_v0 (ix3 b s f) k = ix2 f k := fun k => funext fun a => by
    match a with
    | ⟨0, _⟩ => rfl
    | ⟨1, _⟩ => rfl
  have e3 : idx_main_v1 (idx_main_v2 (ix3 b s f)) = ix1 f := funext fun a => by
    match a with
    | ⟨0, _⟩ => rfl
  rw [e3]
  simp only [e1, e2]
  rfl

/-- Position (b, s, h, e) of the four-axis view of the 3072 columns is column h · 192 + e of row (b, s). -/
private theorem unsplit (b : Fin 2) (s : Fin 2048) (h : Fin 16) (e : Fin 192) (c : Fin 3072) (hc : c.val = h.val * 192 + e.val) :
    idx_main_v4 (ix4 b s h e) = ix3 b s c := by
  funext a
  apply Fin.ext
  have hb := b.isLt
  have hs := s.isLt
  have hh := h.isLt
  have he := e.isLt
  match a with
  | ⟨0, _⟩ => show (((b.val * 2048 + s.val) * 16 + h.val) * 192 + e.val) / 6291456 = b.val; omega
  | ⟨1, _⟩ => show (((b.val * 2048 + s.val) * 16 + h.val) * 192 + e.val) / 3072 % 2048 = s.val; omega
  | ⟨2, _⟩ => show (((b.val * 2048 + s.val) * 16 + h.val) * 192 + e.val) % 3072 = c.val; omega

/-- Head h's queries: the first 64 of its 192 columns. -/
private theorem hq_at (b : Fin 2) (h : Fin 16) (s : Fin 2048) (d : Fin 64) :
    val_main_v6 (F := Ideal) x0 x1 x2 (ix4 b h s d) = Cert.Mha.hq X WQ BQ b h s d := by
  rw [val_main_v6_apply, val_main_v5_apply, val_main_v4_apply]
  have e : idx_main_v5 (idx_main_v6 (ix4 b h s d))
      = ix4 b s h (⟨d.val, by have := d.isLt; omega⟩ : Fin 192) := funext fun a => by
    match a with
    | ⟨0, _⟩ => rfl
    | ⟨1, _⟩ => rfl
    | ⟨2, _⟩ => rfl
    | ⟨3, _⟩ => rfl
  rw [e, unsplit b s h _ (Cert.Mha.col 0 (by omega) h d) (by show h.val * 192 + 0 + d.val = h.val * 192 + d.val; omega), qkv_at]
  rfl

/-- Head h's keys: the middle 64 of its 192 columns. -/
private theorem hk_at (b : Fin 2) (h : Fin 16) (s : Fin 2048) (d : Fin 64) :
    val_main_v7 (F := Ideal) x0 x1 x2 (ix4 b h s d) = Cert.Mha.hk X WQ BQ b h s d := by
  rw [val_main_v7_apply, val_main_v5_apply, val_main_v4_apply]
  have e : idx_main_v5 (idx_main_v7 (ix4 b h s d))
      = ix4 b s h (⟨64 + d.val, by have := d.isLt; omega⟩ : Fin 192) := funext fun a => by
    match a with
    | ⟨0, _⟩ => rfl
    | ⟨1, _⟩ => rfl
    | ⟨2, _⟩ => rfl
    | ⟨3, _⟩ => rfl
  rw [e, unsplit b s h _ (Cert.Mha.col 64 (by omega) h d) (by show h.val * 192 + 64 + d.val = h.val * 192 + (64 + d.val); omega), qkv_at]
  rfl

/-- Head h's values: the last 64 of its 192 columns. -/
private theorem hv_at (b : Fin 2) (h : Fin 16) (s : Fin 2048) (d : Fin 64) :
    val_main_v8 (F := Ideal) x0 x1 x2 (ix4 b h s d) = Cert.Mha.hv X WQ BQ b h s d := by
  rw [val_main_v8_apply, val_main_v5_apply, val_main_v4_apply]
  have e : idx_main_v5 (idx_main_v8 (ix4 b h s d))
      = ix4 b s h (⟨128 + d.val, by have := d.isLt; omega⟩ : Fin 192) := funext fun a => by
    match a with
    | ⟨0, _⟩ => rfl
    | ⟨1, _⟩ => rfl
    | ⟨2, _⟩ => rfl
    | ⟨3, _⟩ => rfl
  rw [e, unsplit b s h _ (Cert.Mha.col 128 (by omega) h d) (by show h.val * 192 + 128 + d.val = h.val * 192 + (128 + d.val); omega), qkv_at]
  rfl

/-- The scaled scores: the contraction over the 64 lanes, divided by the square root of 64. -/
private theorem score_at (b : Fin 2) (h : Fin 16) (q k : Fin 2048) :
    val_main_v12 (F := Ideal) x0 x1 x2 (ix4 b h q k)
      = Cert.Mha.score (Cert.Mha.hq X WQ BQ b h) (Cert.Mha.hk X WQ BQ b h) q k := by
  rw [val_main_v12_apply, val_main_v9_apply, val_main_v11_apply, val_main_v10_apply, val_main_cst_apply]
  have e1 : ∀ d : Fin 64, lidx_main_v9 (ix4 b h q k) d = ix4 b h q d := fun d => funext fun a => by
    match a with
    | ⟨0, _⟩ => rfl
    | ⟨1, _⟩ => rfl
    | ⟨2, _⟩ => rfl
    | ⟨3, _⟩ => rfl
  have e2 : ∀ d : Fin 64, ridx_main_v9 (ix4 b h q k) d = ix4 b h k d := fun d => funext fun a => by
    match a with
    | ⟨0, _⟩ => rfl
    | ⟨1, _⟩ => rfl
    | ⟨2, _⟩ => rfl
    | ⟨3, _⟩ => rfl
  simp only [e1, e2, hq_at, hk_at]
  rw [Ideal.hostDivf_def, Ideal.hostUnary_sqrt_def, Ideal.ofBits_def, Cert.Mha.div_sqrt_64]
  rfl

/-- The reduction over the last axis in the form that names the inserted coordinate. -/
private theorem hRed : S2x16x2048x2048.Reduces [3] S2x16x2048 := by decide

/-- Row (b, h, q) with the coordinate k put back on the last axis is (b, h, q, k). -/
private theorem lift_at (b : Fin 2) (h : Fin 16) (q : Fin 2048) (k : Fin (S2x16x2048x2048.size 3)) :
    hRed.lift (ix3 b h q) k = ix4 b h q (⟨k.val, k.isLt⟩ : Fin 2048) := by
  funext c
  apply Fin.ext
  match c with
  | ⟨0, _⟩ => rfl
  | ⟨1, _⟩ => rfl
  | ⟨2, _⟩ => rfl
  | ⟨3, _⟩ => rfl

/-- The row maximum: the fold from −∞ over the row, and one more comparison with −∞ that changes nothing. -/
private theorem rowmax_at (b : Fin 2) (h : Fin 16) (q : Fin 2048) :
    val_main_v15 (F := Ideal) x0 x1 x2 (ix3 b h q)
      = Cert.Mha.rowMax (Cert.Mha.score (Cert.Mha.hq X WQ BQ b h) (Cert.Mha.hk X WQ BQ b h) q) := by
  rw [val_main_v15_apply, val_main_v14_apply, val_main_cst_1_apply]
  unfold val_main_v13
  rw [Host.reduce_eq_fold_single FloatOps.maximumf _ _ reducesTo_S2x16x2048x2048_S2x16x2048_d3 hRed h_S_,
    val_main_cst_0_apply]
  have hf : (val_main_v12 (F := Ideal) x0 x1 x2 ∘ hRed.lift (ix3 b h q))
      = Cert.Mha.score (Cert.Mha.hq X WQ BQ b h) (Cert.Mha.hk X WQ BQ b h) q := funext fun k => by
    show val_main_v12 (F := Ideal) x0 x1 x2 (hRed.lift (ix3 b h q) k) = _
    rw [lift_at, score_at]
    rfl
  rw [hf, Ideal.maximumf_def, Ideal.ofBits_def, Cert.Mha.ofBits_negInf, Cert.Mha.max_bot_left]
  rfl

/-- The exponentials of the scores less their row maximum. -/
private theorem exp_at (b : Fin 2) (h : Fin 16) (q k : Fin 2048) :
    val_main_v19 (F := Ideal) x0 x1 x2 (ix4 b h q k)
      = Ideal.exp (Cert.Mha.score (Cert.Mha.hq X WQ BQ b h) (Cert.Mha.hk X WQ BQ b h) q k
          - Cert.Mha.rowMax (Cert.Mha.score (Cert.Mha.hq X WQ BQ b h) (Cert.Mha.hk X WQ BQ b h) q)) := by
  rw [val_main_v19_apply, val_main_v18_apply, val_main_v17_apply, val_main_v16_apply]
  have e : idx_main_v16 (idx_main_v17 (ix4 b h q k)) = ix3 b h q := funext fun a => by
    match a with
    | ⟨0, _⟩ => rfl
    | ⟨1, _⟩ => rfl
    | ⟨2, _⟩ => rfl
  rw [e, rowmax_at, score_at, Ideal.hostUnary_exp_def, Ideal.subf_def]

/-- The row's sum of exponentials, taken from zero. -/
private theorem sumexp_at (b : Fin 2) (h : Fin 16) (q : Fin 2048) :
    val_main_v20 (F := Ideal) x0 x1 x2 (ix3 b h q)
      = ∑ j : Fin 2048, Ideal.exp (Cert.Mha.score (Cert.Mha.hq X WQ BQ b h) (Cert.Mha.hk X WQ BQ b h) q j
          - Cert.Mha.rowMax (Cert.Mha.score (Cert.Mha.hq X WQ BQ b h) (Cert.Mha.hk X WQ BQ b h) q)) := by
  rw [val_main_v20_apply, val_main_cst_2_apply, Ideal.ofBits_def, Ideal.ofBits_zero_f32, zero_add]
  refine Finset.sum_congr rfl fun j _ => ?_
  have e : idx_main_v20 (ix3 b h q) j = ix4 b h q j := funext fun a => by
    match a with
    | ⟨0, _⟩ => rfl
    | ⟨1, _⟩ => rfl
    | ⟨2, _⟩ => rfl
    | ⟨3, _⟩ => rfl
  rw [e, exp_at]

/-- The probabilities: each exponential over its row's sum. -/
private theorem attn_at (b : Fin 2) (h : Fin 16) (q k : Fin 2048) :
    val_main_v23 (F := Ideal) x0 x1 x2 (ix4 b h q k) = Cert.Mha.attn X WQ BQ b h q k := by
  rw [val_main_v23_apply, val_main_v22_apply, val_main_v21_apply]
  have e : idx_main_v21 (idx_main_v22 (ix4 b h q k)) = ix3 b h q := funext fun a => by
    match a with
    | ⟨0, _⟩ => rfl
    | ⟨1, _⟩ => rfl
    | ⟨2, _⟩ => rfl
  rw [e, sumexp_at, exp_at, Ideal.hostDivf_def]
  rfl

/-- The weighted values of a head: the probabilities against the head's values. -/
private theorem vals_at (b : Fin 2) (h : Fin 16) (q : Fin 2048) (d : Fin 64) :
    val_main_v24 (F := Ideal) x0 x1 x2 (ix4 b h q d) = Cert.Mha.vals X WQ BQ b h q d := by
  rw [val_main_v24_apply]
  have e1 : ∀ j : Fin 2048, lidx_main_v24 (ix4 b h q d) j = ix4 b h q j := fun j => funext fun a => by
    match a with
    | ⟨0, _⟩ => rfl
    | ⟨1, _⟩ => rfl
    | ⟨2, _⟩ => rfl
    | ⟨3, _⟩ => rfl
  have e2 : ∀ j : Fin 2048, ridx_main_v24 (ix4 b h q d) j = ix4 b h j d := fun j => funext fun a => by
    match a with
    | ⟨0, _⟩ => rfl
    | ⟨1, _⟩ => rfl
    | ⟨2, _⟩ => rfl
    | ⟨3, _⟩ => rfl
  simp only [e1, e2, attn_at, hv_at]
  rfl

/-- The heads side by side again: column e of row (b, s) is lane e % 64 of head e / 64. -/
private theorem merged_at (b : Fin 2) (s : Fin 2048) (e : Fin 1024) :
    val_main_v26 (F := Ideal) x0 x1 x2 (ix3 b s e) = Cert.Mha.merged X WQ BQ b s e := by
  rw [val_main_v26_apply, val_main_v25_apply]
  have hb := b.isLt
  have hs := s.isLt
  have he := e.isLt
  have ei : idx_main_v25 (idx_main_v26 (ix3 b s e))
      = ix4 b (⟨e.val / 64, by omega⟩ : Fin 16) s (⟨e.val % 64, Nat.mod_lt _ (by omega)⟩ : Fin 64) := funext fun a => Fin.ext (by
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)
  rw [ei, vals_at]
  rfl

end Stages

section Out

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The output projection: the contraction over the 1024 merged columns plus the bias of the column. -/
private theorem out_at (b : Fin 2) (s : Fin 2048) (f : Fin 1024) :
    val_main_v30 (F := Ideal) x0 x1 x2 x3 x4 (ix3 b s f)
      = Cert.Mha.out (fun b s e => x0 (ix3 b s e)) (fun f e => x1 (ix2 f e)) (fun f => x2 (ix1 f))
          (fun f e => x3 (ix2 f e)) (fun f => x4 (ix1 f)) b s f := by
  rw [val_main_v30_apply, val_main_v27_apply, val_main_v29_apply, val_main_v28_apply]
  have e1 : ∀ k : Fin 1024, lidx_main_v27 (ix3 b s f) k = ix3 b s k := fun k => funext fun a => by
    match a with
    | ⟨0, _⟩ => rfl
    | ⟨1, _⟩ => rfl
    | ⟨2, _⟩ => rfl
  have e2 : ∀ k : Fin 1024, ridx_main_v27 (ix3 b s f) k = ix2 f k := fun k => funext fun a => by
    match a with
    | ⟨0, _⟩ => rfl
    | ⟨1, _⟩ => rfl
  have e3 : idx_main_v28 (idx_main_v29 (ix3 b s f)) = ix1 f := funext fun a => by
    match a with
    | ⟨0, _⟩ => rfl
  rw [e3]
  simp only [e1, e2, merged_at]
  rfl

end Out

/-- The reference's probabilities are the layer's, index by index. -/
theorem attn_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) :
    val_main_v23 (F := Ideal) x0 x1 x2 = Cert.Mha.attnArr x0 x1 x2 := by
  funext j
  obtain ⟨b, h, q, k, rfl⟩ : ∃ (b : Fin 2) (h : Fin 16) (q k : Fin 2048), j = ix4 b h q k :=
    ⟨j 0, j 1, j 2, j 3, eq_ix4 (n0 := 2) (n1 := 16) (n2 := 2048) (n3 := 2048) j⟩
  rw [attn_at]
  rfl

/-- The reference's output is the layer's, index by index. -/
theorem out_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    val_main_v30 (F := Ideal) x0 x1 x2 x3 x4 = Cert.Mha.outArr x0 x1 x2 x3 x4 := by
  funext j
  obtain ⟨b, s, f, rfl⟩ : ∃ (b : Fin 2) (s : Fin 2048) (f : Fin 1024), j = ix3 b s f :=
    ⟨j 0, j 1, j 2, eq_ix3 (n0 := 2) (n1 := 2048) (n2 := 1024) j⟩
  rw [out_at]
  rfl

/-- The reference's run, with both results named by the layer's two arrays of the argument arrays. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
          = Cert.Mha.outArr (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v23)
          = Cert.Mha.attnArr (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
    ⟨(h c).1.trans ((val_main_v30_eq m c).trans (out_eq _ _ _ _ _)),
     (h c).2.1.trans ((val_main_v23_eq m c).trans (attn_eq _ _ _)), (h c).2.2⟩)
    (Cert.ReferenceIdeal.Value.run (F := Ideal) m ρ)

end Cert.ReferenceIdeal.RefValue

end
-- ==== Proof.lean ====
/-
  Multi-head self-attention in three pallas_calls (the fused projection, the per-head softmax attention, the output
  projection; bf16 on the way, which changes nothing on the extended reals) against its jnp reference. Both programs
  compute the two arrays of Proof/Spec.lean from the five argument arrays: the kernel's program because each
  pallas_call's result array is, row by row, what its body makes of the blocks it is handed (Proof/Proj0, Proof/AttnRegion,
  Proof/Proj2), read through the reshapes and transposes between the calls (Proof/HostReads) and put together in
  Proof/KValue; the reference because each of its operations read at an index is the layer's (Proof/RefValue). The only
  places where the two spell a number differently are the scale of the scores — times 1/8 in the kernel, over √64 in the
  reference: one function on every extended real — and the reference's extra comparison of each row maximum with −∞.
  No step needs the inputs finite. The three frames are the generated ones (the reference's is its run with the results
  dropped), and the ideal pass rewrote nothing, so there is nothing to preserve.
-/
import proofs.«411648_j9225589752264_3_alg».proof.Defs
import proofs.«411648_j9225589752264_3_alg».proof.Proof.Gen.Kernel
import proofs.«411648_j9225589752264_3_alg».proof.Proof.Gen.Kernel.Frame
import proofs.«411648_j9225589752264_3_alg».proof.Proof.Gen.KernelIdeal
import proofs.«411648_j9225589752264_3_alg».proof.Proof.Gen.KernelIdeal.Frame
import proofs.«411648_j9225589752264_3_alg».proof.Proof.Gen.ReferenceIdeal
import proofs.«411648_j9225589752264_3_alg».proof.Proof.Gen.ReferenceIdeal.Run
import proofs.«411648_j9225589752264_3_alg».proof.Proof.Gen.Pre_finite_inputs
import proofs.«411648_j9225589752264_3_alg».proof.Proof.KValue
import proofs.«411648_j9225589752264_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the layer's two arrays of their own argument arrays, and the argument arrays agree. -/
theorem algebraic : Cert.algebraic_KernelIdeal_ReferenceIdeal := by
  intro m ρ m' ρ' _ hagree
  refine ⟨_, _, Cert.KernelIdeal.KValue.run_spec m ρ, ?_⟩
  refine (θ_run Cert.ReferenceIdeal.defs _ _).mono (fun _ h c => ?_) (Cert.ReferenceIdeal.RefValue.run_spec m' ρ')
  obtain ⟨h0, h1, h2, h3, h4⟩ := hagree c
  rw [← h0, ← h1, ← h2, ← h3, ← h4]
  exact h c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
